-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x8192 : Shape := ⟨2, ![128, 8192]⟩
abbrev S1024x8192 : Shape := ⟨2, ![1024, 8192]⟩
abbrev S64x8192 : Shape := ⟨2, ![64, 8192]⟩
abbrev S_ : Shape := ⟨0, ![]⟩

class Facts : Prop where
  bcast_S_S128x8192 : S_.BroadcastsInDim S128x8192 (![] : Fin 0 → Fin S128x8192.rank)
  reducesTo_S128x8192_S_d0_1 : S128x8192.ReducesTo [0, 1] S_
  h_S_ : 0 < S_.numel
  bcast_S_S64x8192 : S_.BroadcastsInDim S64x8192 (![] : Fin 0 → Fin S64x8192.rank)
  reducesTo_S64x8192_S_d0_1 : S64x8192.ReducesTo [0, 1] S_

variable [Facts]

def fn {F : FTy → Type} [FloatOps F] (main_arg0 : FVec F S128x8192 .f32) (main_arg1 : IVec S1024x8192 32) (main_arg2 : FVec F S64x8192 .f32) (main_arg3 : FVec F S64x8192 .f32) : IVec S_ 1 :=
  let main_v0 : FVec F S128x8192 .f32 := Host.absf main_arg0
  let main_cst : FVec F S_ .f32 := constant S_ .f32 0x7F800000#32
  let main_v1 : FVec F S128x8192 .f32 := broadcastInDim S128x8192 ![] bcast_S_S128x8192 main_cst
  let main_v2 : IVec S128x8192 1 := cmpf .olt main_v0 main_v1
  let main_c : IVec S_ 1 := constantI S_ 1 1#1
  let main_v3 : IVec S_ 1 := (fun x v => Host.reduce IntOp.andi x v reducesTo_S128x8192_S_d0_1 h_S_) main_v2 main_c
  let main_v4 : FVec F S64x8192 .f32 := Host.absf main_arg2
  let main_cst_0 : FVec F S_ .f32 := constant S_ .f32 0x7F800000#32
  let main_v5 : FVec F S64x8192 .f32 := broadcastInDim S64x8192 ![] bcast_S_S64x8192 main_cst_0
  let main_v6 : IVec S64x8192 1 := cmpf .olt main_v4 main_v5
  let main_c_1 : IVec S_ 1 := constantI S_ 1 1#1
  let main_v7 : IVec S_ 1 := (fun x v => Host.reduce IntOp.andi x v reducesTo_S64x8192_S_d0_1 h_S_) main_v6 main_c_1
  let main_v8 : IVec S_ 1 := andi main_v3 main_v7
  let main_v9 : FVec F S64x8192 .f32 := Host.absf main_arg3
  let main_cst_2 : FVec F S_ .f32 := constant S_ .f32 0x7F800000#32
  let main_v10 : FVec F S64x8192 .f32 := broadcastInDim S64x8192 ![] bcast_S_S64x8192 main_cst_2
  let main_v11 : IVec S64x8192 1 := cmpf .olt main_v9 main_v10
  let main_c_3 : IVec S_ 1 := constantI S_ 1 1#1
  let main_v12 : IVec S_ 1 := (fun x v => Host.reduce IntOp.andi x v reducesTo_S64x8192_S_d0_1 h_S_) main_v11 main_c_3
  let main_v13 : IVec S_ 1 := andi main_v8 main_v12
  main_v13
-- ==== Kernel.lean ====
abbrev S128x8192 : Shape := ⟨2, ![128, 8192]⟩
abbrev S1024x8192 : Shape := ⟨2, ![1024, 8192]⟩
abbrev S64x8192 : Shape := ⟨2, ![64, 8192]⟩
abbrev S128x2048 : Shape := ⟨2, ![128, 2048]⟩
abbrev S8x2048 : Shape := ⟨2, ![8, 2048]⟩
abbrev S1x8x1 : Shape := ⟨3, ![1, 8, 1]⟩
abbrev S32x2048 : Shape := ⟨2, ![32, 2048]⟩
abbrev S32x1x2048 : Shape := ⟨3, ![32, 1, 2048]⟩
abbrev S32x8x2048 : Shape := ⟨3, ![32, 8, 2048]⟩
abbrev S2x2048 : Shape := ⟨2, ![2, 2048]⟩
abbrev S2x1x1x2048 : Shape := ⟨4, ![2, 1, 1, 2048]⟩
abbrev S2x16x8x2048 : Shape := ⟨4, ![2, 16, 8, 2048]⟩
abbrev S256x2048 : Shape := ⟨2, ![256, 2048]⟩
abbrev S128x256 : Shape := ⟨2, ![128, 256]⟩
abbrev S128x64x128 : Shape := ⟨3, ![128, 64, 128]⟩
abbrev S_ : Shape := ⟨0, ![]⟩
abbrev S128x64 : Shape := ⟨2, ![128, 64]⟩

abbrev nBuf : Space → Nat
  | .hbm => 12
  | .vmem => 7
  | .smem => 0
  | _ => 0

abbrev bufTy : (tb : Table) → Fin (tcTables nBuf tb) → BufTy
  | .hbm, ⟨0, _⟩ => ⟨S128x8192, .f32⟩
  | .hbm, ⟨1, _⟩ => ⟨S1024x8192, .i32⟩
  | .hbm, ⟨2, _⟩ => ⟨S64x8192, .f32⟩
  | .hbm, ⟨3, _⟩ => ⟨S64x8192, .f32⟩
  | .hbm, ⟨4, _⟩ => ⟨S128x8192, .bf16⟩
  | .hbm, ⟨5, _⟩ => ⟨S128x8192, .f32⟩
  | .hbm, ⟨6, _⟩ => ⟨S128x64x128, .f32⟩
  | .hbm, ⟨7, _⟩ => ⟨S_, .f32⟩
  | .hbm, ⟨8, _⟩ => ⟨S128x64, .f32⟩
  | .hbm, ⟨9, _⟩ => ⟨S64x8192, .f32⟩
  | .hbm, ⟨10, _⟩ => ⟨S128x8192, .f32⟩
  | .hbm, ⟨11, _⟩ => ⟨S128x8192, .f32⟩
  | .local _ .vmem, ⟨0, _⟩ => ⟨S128x8192, .bf16⟩
  | .local _ .vmem, ⟨1, _⟩ => ⟨S128x2048, .i32⟩
  | .local _ .vmem, ⟨2, _⟩ => ⟨S128x2048, .i32⟩
  | .local _ .vmem, ⟨3, _⟩ => ⟨S8x2048, .f32⟩
  | .local _ .vmem, ⟨4, _⟩ => ⟨S8x2048, .f32⟩
  | .local _ .vmem, ⟨5, _⟩ => ⟨S128x2048, .f32⟩
  | .local _ .vmem, ⟨6, _⟩ => ⟨S128x2048, .f32⟩
  | _, _ => ⟨S128x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c1024_i32 : BitVec 32 := 1024#32
  let v25 : BitVec 32 := Scalar.muli arg1 c1024_i32
  let c0_i32_4 : BitVec 32 := 0#32
  let v26 : BitVec 32 := Scalar.addi v25 c0_i32_4
  v26
def k0_off1 (i : grid0.Coords) (c0_i32_4 : BitVec 32) : Fin 2 → Nat :=
  let c0_5 : Index := 0#32
  let arg1 : BitVec 32 := BitVec.ofNat 32 (i 1).val
  let c1024_i32 : BitVec 32 := 1024#32
  let v25 : BitVec 32 := Scalar.muli arg1 c1024_i32
  let v26 : BitVec 32 := Scalar.addi v25 c0_i32_4
  let v27 : BitVec 32 := v26
  let v28 : Index := Scalar.indexCast v27
  ![0, v28.toNat]
def k0_mult2 (i : grid0.Coords) : BitVec 32 :=
  let arg1 : BitVec 32 := BitVec.ofNat 32 (i 1).val
  let c1024_i32_8 : BitVec 32 := 1024#32
  let v49 : BitVec 32 := Scalar.muli arg1 c1024_i32_8
  let c256_i32 : BitVec 32 := 256#32
  let v50 : BitVec 32 := Scalar.addi v49 c256_i32
  v50
def k0_mult3 (i : grid0.Coords) : BitVec 32 :=
  let arg1 : BitVec 32 := BitVec.ofNat 32 (i 1).val
  let c1024_i32_12 : BitVec 32 := 1024#32
  let v73 : BitVec 32 := Scalar.muli arg1 c1024_i32_12
  let c512_i32 : BitVec 32 := 512#32
  let v74 : BitVec 32 := Scalar.addi v73 c512_i32
  v74
def k0_mult4 (i : grid0.Coords) : BitVec 32 :=
  let arg1 : BitVec 32 := BitVec.ofNat 32 (i 1).val
  let c1024_i32_16 : BitVec 32 := 1024#32
  let v97 : BitVec 32 := Scalar.muli arg1 c1024_i32_16
  let c768_i32 : BitVec 32 := 768#32
  let v98 : BitVec 32 := Scalar.addi v97 c768_i32
  v98
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S128x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bitsLt_bf16_f32 : FTy.bits .bf16 < FTy.bits .f32
  inb_S128x2048_S128x2048_0_0 : ∀ a, (![0, 0] : Fin 2 → Nat) a + S128x2048.size a ≤ S128x2048.size a
  h_S128x2048 : 0 < S128x2048.numel
  inb_S8x2048_S8x2048_0_0 : ∀ a, (![0, 0] : Fin 2 → Nat) a + S8x2048.size a ≤ S8x2048.size a
  h_S8x2048 : 0 < S8x2048.numel
  iota_S1x8x1_d1_w32 : S1x8x1.Iotas .tc 32 [1]
  slices_S128x2048_o0_0_S32x2048 : S128x2048.Slices ![0, 0] S32x2048
  shapeCasts_S32x2048_S32x1x2048 : S32x2048.ShapeCasts S32x1x2048
  broadcasts_S32x1x2048_S32x8x2048 : S32x1x2048.Broadcasts S32x8x2048
  broadcasts_S1x8x1_S32x8x2048 : S1x8x1.Broadcasts S32x8x2048
  slices_S8x2048_o0_0_S2x2048 : S8x2048.Slices ![0, 0] S2x2048
  shapeCasts_S2x2048_S2x1x1x2048 : S2x2048.ShapeCasts S2x1x1x2048
  shapeCasts_S2x1x1x2048_S2x1x1x2048 : S2x1x1x2048.ShapeCasts S2x1x1x2048
  broadcasts_S2x1x1x2048_S2x16x8x2048 : S2x1x1x2048.Broadcasts S2x16x8x2048
  shapeCasts_S2x16x8x2048_S32x8x2048 : S2x16x8x2048.ShapeCasts S32x8x2048
  shapeCasts_S32x8x2048_S256x2048 : S32x8x2048.ShapeCasts S256x2048
  h_S128x256 : 0 < S128x256.numel
  shapeCasts_S128x256_S128x256 : S128x256.ShapeCasts S128x256
  slices_S128x2048_o32_0_S32x2048 : S128x2048.Slices ![32, 0] S32x2048
  slices_S8x2048_o2_0_S2x2048 : S8x2048.Slices ![2, 0] S2x2048
  slices_S128x2048_o64_0_S32x2048 : S128x2048.Slices ![64, 0] S32x2048
  slices_S8x2048_o4_0_S2x2048 : S8x2048.Slices ![4, 0] S2x2048
  slices_S128x2048_o96_0_S32x2048 : S128x2048.Slices ![96, 0] S32x2048
  slices_S8x2048_o6_0_S2x2048 : S8x2048.Slices ![6, 0] S2x2048
  shapeCasts_S128x2048_S128x2048 : S128x2048.ShapeCasts S128x2048
  shapeCasts_S128x8192_S128x64x128 : S128x8192.ShapeCasts S128x64x128
  reducesTo_S128x64x128_S128x64_d2 : S128x64x128.ReducesTo [2] S128x64
  h_S_ : 0 < S_.numel
  dot_S128x256_S256x2048_S128x2048_1_0_0_1_n_n_wf : DotDims.WF S128x256 S256x2048 S128x2048 [1] [0] [0] [1] [] []
  dot_S128x64_S64x8192_S128x8192_1_0_0_1_n_n_wf : DotDims.WF S128x64 S64x8192 S128x8192 [1] [0] [0] [1] [] []
  hrank0 : 0 < grid0.rank
  k0_mult1_dvd : ∀ i : grid0.Coords, 128 ∣ (k0_mult1 i).toNat
  k0_off1_inb : ∀ i : grid0.Coords, ∀ (r : Fin 4), ∀ a, (k0_off1 i (BitVec.ofNat 32 (256 * r.val))) a + S128x256.size a ≤ S128x8192.size a
  k0_mult2_dvd : ∀ i : grid0.Coords, 128 ∣ (k0_mult2 i).toNat
  k0_mult3_dvd : ∀ i : grid0.Coords, 128 ∣ (k0_mult3 i).toNat
  k0_mult4_dvd : ∀ i : grid0.Coords, 128 ∣ (k0_mult4 i).toNat
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S128x8192.size a
  hwx0_0 : ∀ i : grid0.Coords, EltTy.bits .bf16 = 32 ∨ (Rect.block (s := S128x8192) S128x8192.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S1024x8192.size a
  hwx0_1 : ∀ i : grid0.Coords, EltTy.bits .i32 = 32 ∨ (Rect.block (s := S1024x8192) S128x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x2048.size a ≤ S64x8192.size a
  hwx0_2 : ∀ i : grid0.Coords, EltTy.bits .f32 = 32 ∨ (Rect.block (s := S64x8192) S8x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x2048.size a ≤ S128x8192.size a
  hwx0_3 : ∀ i : grid0.Coords, EltTy.bits .f32 = 32 ∨ (Rect.block (s := S128x8192) S128x2048.size (cc0_transform_3 i) (hinb0_3 i)).WholeWords (EltTy.packing .f32)

variable [Facts₀]

def dot_S128x256_S256x2048_S128x2048_1_0_0_1_n_n : DotDims S128x256 S256x2048 S128x2048 where
  lhsContracting := [1]
  rhsContracting := [0]
  lhsNonContracting := [0]
  rhsNonContracting := [1]
  lhsBatch := []
  rhsBatch := []
  wf := dot_S128x256_S256x2048_S128x2048_1_0_0_1_n_n_wf
def dot_S128x64_S64x8192_S128x8192_1_0_0_1_n_n : DotDims S128x64 S64x8192 S128x8192 where
  lhsContracting := [1]
  rhsContracting := [0]
  lhsNonContracting := [0]
  rhsNonContracting := [1]
  lhsBatch := []
  rhsBatch := []
  wf := dot_S128x64_S64x8192_S128x8192_1_0_0_1_n_n_wf

abbrev win0_0 : Pipeline.Window sig grid0 :=
  Pipeline.Window.ofSpec (Memref.whole main_v0) S128x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S128x8192 : Shape := ⟨2, ![128, 8192]⟩
abbrev S1024x8192 : Shape := ⟨2, ![1024, 8192]⟩
abbrev S64x8192 : Shape := ⟨2, ![64, 8192]⟩
abbrev S8 : Shape := ⟨1, ![8]⟩
abbrev S_ : Shape := ⟨0, ![]⟩
abbrev S1024x1x8192 : Shape := ⟨3, ![1024, 1, 8192]⟩
abbrev S1x8x1 : Shape := ⟨3, ![1, 8, 1]⟩
abbrev S1024x8x8192 : Shape := ⟨3, ![1024, 8, 8192]⟩
abbrev S8192x8192 : Shape := ⟨2, ![8192, 8192]⟩
abbrev S64x128x8192 : Shape := ⟨3, ![64, 128, 8192]⟩

abbrev nBuf : Space → Nat
  | .hbm => 25
  | .vmem => 0
  | .smem => 0
  | _ => 0

abbrev bufTy : (tb : Table) → Fin (tcTables nBuf tb) → BufTy
  | .hbm, ⟨0, _⟩ => ⟨S128x8192, .f32⟩
  | .hbm, ⟨1, _⟩ => ⟨S1024x8192, .i32⟩
  | .hbm, ⟨2, _⟩ => ⟨S64x8192, .f32⟩
  | .hbm, ⟨3, _⟩ => ⟨S64x8192, .f32⟩
  | .hbm, ⟨4, _⟩ => ⟨S8, .i32⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S1024x1x8192, .i32⟩
  | .hbm, ⟨9, _⟩ => ⟨S1x8x1, .i32⟩
  | .hbm, ⟨10, _⟩ => ⟨S1024x8x8192, .i32⟩
  | .hbm, ⟨11, _⟩ => ⟨S1024x8x8192, .i32⟩
  | .hbm, ⟨12, _⟩ => ⟨S1024x8x8192, .i32⟩
  | .hbm, ⟨13, _⟩ => ⟨S_, .i32⟩
  | .hbm, ⟨14, _⟩ => ⟨S1024x8x8192, .i32⟩
  | .hbm, ⟨15, _⟩ => ⟨S1024x8x8192, .i32⟩
  | .hbm, ⟨16, _⟩ => ⟨S8192x8192, .i32⟩
  | .hbm, ⟨17, _⟩ => ⟨S8192x8192, .f32⟩
  | .hbm, ⟨18, _⟩ => ⟨S64x128x8192, .f32⟩
  | .hbm, ⟨19, _⟩ => ⟨S8192x8192, .f32⟩
  | .hbm, ⟨20, _⟩ => ⟨S64x128x8192, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S128x8192, .f32⟩
  | _, _ => ⟨S128x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S1024x8192_S1024x1x8192_0_2 : S1024x8192.BroadcastsInDim S1024x1x8192 (![0, 2] : Fin 2 → Fin S1024x1x8192.rank)
  bcast_S8_S1x8x1_1 : S8.BroadcastsInDim S1x8x1 (![1] : Fin 1 → Fin S1x8x1.rank)
  bcast_S1024x1x8192_S1024x8x8192_0_1_2 : S1024x1x8192.BroadcastsInDim S1024x8x8192 (![0, 1, 2] : Fin 3 → Fin S1024x8x8192.rank)
  bcast_S1x8x1_S1024x8x8192_0_1_2 : S1x8x1.BroadcastsInDim S1024x8x8192 (![0, 1, 2] : Fin 3 → Fin S1024x8x8192.rank)
  bcast_S_S1024x8x8192 : S_.BroadcastsInDim S1024x8x8192 (![] : Fin 0 → Fin S1024x8x8192.rank)
  shapeCasts_S1024x8x8192_S8192x8192 : S1024x8x8192.ShapeCasts S8192x8192
  bcast_S64x8192_S64x128x8192_0_2 : S64x8192.BroadcastsInDim S64x128x8192 (![0, 2] : Fin 2 → Fin S64x128x8192.rank)
  shapeCasts_S64x128x8192_S8192x8192 : S64x128x8192.ShapeCasts S8192x8192
  dot_S128x8192_S8192x8192_S128x8192_1_0_0_1_n_n_wf : DotDims.WF S128x8192 S8192x8192 S128x8192 [1] [0] [0] [1] [] []

variable [Facts₀]

def dot_S128x8192_S8192x8192_S128x8192_1_0_0_1_n_n : DotDims S128x8192 S8192x8192 S128x8192 where
  lhsContracting := [1]
  rhsContracting := [0]
  lhsNonContracting := [0]
  rhsNonContracting := [1]
  lhsBatch := []
  rhsBatch := []
  wf := dot_S128x8192_S8192x8192_S128x8192_1_0_0_1_n_n_wf

class Facts : Prop extends Facts₀ where

variable [Facts]
-- ==== Proof.Pieces.lean ====
/-
  What each control case of the body leaves in the output's staging buffer, as a value: the body's one store of
  "previous contents + the tile's product", the previous contents being the zero block at the first K-tile of a column
  tile (the body resets the buffer, then reads it back) and what the point before left at every other K-tile.
-/
import proofs.«414744_j49718541418971_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic

namespace Cert.QMM

open Cert.KernelIdeal Cert.KernelIdeal.Gen

variable {F : FTy → Type} [FloatOps F]

theorem zero_off : (![0, 0] : Fin 2 → Nat) = fun _ => 0 := funext fun a => by fin_cases a <;> rfl

/-- Chunk `r` of the resident block of `x` at grid coordinates `i`: its 256 columns from `1024 · i₁ + 256 r`. -/
def xChunk (i : grid0.Coords) (x0 : Vec F S128x8192 .bf16) (r : Fin 4) : Vec F S128x256 .bf16 :=
  View.ld x0 (Rect.unit (k0_off1 i (BitVec.ofNat 32 (256 * r.val))) S128x256.size (k0_off1_inb i r))

/-- What the body stores over previous contents `prev`: the payload chain of its four chunks. -/
def bodyOut (i : grid0.Coords) (x0 : Vec F S128x8192 .bf16) (x1 : Vec F S128x2048 .i32) (x2 : Vec F S8x2048 .f32)
    (prev : Vec F S128x2048 .f32) : Vec F S128x2048 .f32 :=
  k0_pay1 (k0_pay7 x1 x2 k0_pay3 (k0_pay4 x1 x2 (xChunk i x0 0)) (k0_pay5 x1) (k0_pay6 x2) (xChunk i x0 1) (xChunk i x0 2))
    (k0_pay8 x1 k0_pay3) (k0_pay9 x2) (xChunk i x0 3) prev

/-- At a K-tile other than the first the body leaves its store over what the buffer held. -/
theorem out_B (c : Dev nD) (i : grid0.Coords) (a2 : Memref sig .tc .vmem S128x8192 .bf16) (h2 : a2.IsWhole)
    (a3 : Memref sig .tc .vmem S128x2048 .i32) (h3 : a3.IsWhole) (a4 : Memref sig .tc .vmem S8x2048 .f32) (h4 : a4.IsWhole)
    (a5 : Memref sig .tc .vmem S128x2048 .f32) (h5 : a5.IsWhole) (hc : ¬cond0_0 i)
    (x0 : Vec F S128x8192 .bf16) (x1 : Vec F S128x2048 .i32) (x2 : Vec F S8x2048 .f32) (xo : Vec F S128x2048 .f32) :
    out0_B_3 c i a2 h2 a3 h3 a4 h4 a5 h5 hc x0 x1 x2 xo = bodyOut i x0 x1 x2 xo := by
  unfold out0_B_3
  rw [View.read_writes_eq_canon _ _ _ (cover0_B_3 c i a2 h2 a3 h3 a4 h4 a5 h5 hc x0 x1 x2 xo)]
  unfold kernelRun0_B
  dsimp only
  sl_unfold_run_names
  rw [View.canon_unit_zero zero_off]
  simp only [View.readAt_eq_ld, h2.read_unread, h3.read_unread, h4.read_unread, h5.read_unread,
    View.ld_unit_zero (S := S128x2048) zero_off, View.ld_unit_zero (S := S8x2048) zero_off]
  rfl

/-- At the first K-tile the body zeroes the buffer, reads the zero block back and leaves its store over it. -/
theorem out_A (c : Dev nD) (i : grid0.Coords) (a2 : Memref sig .tc .vmem S128x8192 .bf16) (h2 : a2.IsWhole)
    (a3 : Memref sig .tc .vmem S128x2048 .i32) (h3 : a3.IsWhole) (a4 : Memref sig .tc .vmem S8x2048 .f32) (h4 : a4.IsWhole)
    (a5 : Memref sig .tc .vmem S128x2048 .f32) (h5 : a5.IsWhole) (hc : cond0_0 i)
    (x0 : Vec F S128x8192 .bf16) (x1 : Vec F S128x2048 .i32) (x2 : Vec F S8x2048 .f32) :
    out0_A_3 c i a2 h2 a3 h3 a4 h4 a5 h5 hc x0 x1 x2 = bodyOut i x0 x1 x2 (k0_pay2 (F := F)) := by
  unfold out0_A_3
  rw [View.read_writes_eq_canon _ _ _ (cover0_A_3 c i a2 h2 a3 h3 a4 h4 a5 h5 hc x0 x1 x2)]
  unfold kernelRun0_A
  dsimp only
  sl_unfold_run_names
  rw [View.canon_cons_unit_zero (S := S128x2048) zero_off]
  simp only [View.readAt_eq_ld, h2.read_unread, h3.read_unread, h4.read_unread,
    View.ld_unit_zero (S := S128x2048) zero_off, View.ld_unit_zero (S := S8x2048) zero_off,
    View.readCov_unit_zero (S := S128x2048) _ zero_off]
  rfl

end Cert.QMM

end
-- ==== Proof.Spec.lean ====
/-
  The mathematics of a 4-bit weight-only quantized matrix product, stated once, over plain index types.

  A packed word of `W_q` holds eight 4-bit fields, least significant first: field `e` of a word `w` is
  `(w >>ₛ 4e) & 15`, an integer in 0 … 15. Row `K` of the unpacked 8192 × 8192 weight matrix is field `K % 8` of packed
  row `K / 8`, and it belongs to group `K / 128`, whose scale and zero point are rows `K / 128` of `scales` and `zeros`.

  Two ways of computing `out = x · dequant(W_q)`:
    • the reference's: `out[a, N] = Σ_K x[a, K] · ((u[K, N] − z[K/128, N]) · s[K/128, N])`;
    • the kernel's: `Σ_K x[a, K] · (u[K, N] · s[K/128, N]) − Σ_g (Σ_j x[a, 128 g + j]) · (z[g, N] · s[g, N])`, the first sum
      taken tile by tile (eight tiles of 1024 along K, each in four chunks of 256), the second over the 64 groups.
  They agree when `x`, `s` and `z` are real numbers (the product distributes over the difference and over the group's
  sum): that law is a sibling module's; here are only the definitions both sides are read against.
-/
import Idealize.ShloMosaic.PureOps.Ideal
import Idealize.ShloMosaic.Lib.ValueIdx

noncomputable section

open scoped BigOperators

namespace Cert.QMM

open Idealize.ShloMosaic Idealize.ShloMosaic.ValueIdx

/-- A rank-2 array of extents `n0 × n1`. -/
abbrev Arr (n0 n1 : Nat) (α : Type) : Type := (⟨2, ![n0, n1]⟩ : Shape).Idx → α

/-- The array whose entry at `(a, b)` is `f a b`. -/
def arr2 {n0 n1 : Nat} {α : Type} (f : Fin n0 → Fin n1 → α) : Arr n0 n1 α := fun i => f (i 0) (i 1)

theorem arr2_ix2 {n0 n1 : Nat} {α : Type} (f : Fin n0 → Fin n1 → α) (a : Fin n0) (b : Fin n1) :
    arr2 f (ix2 a b) = f a b := rfl

/-- The shift amount of field `e`: the word `e · 4`. -/
abbrev shiftOf (e : Fin 8) : BitVec 32 := IntOp.muli (BitVec.ofNat 32 e.val) 4#32

/-- Field `e` of the packed word `w`, as a word: `(w >>ₛ 4e) & 15`. -/
def nibW (w : BitVec 32) (e : Fin 8) : BitVec 32 := IntOp.andi (IntOp.shrsi .vector w (shiftOf e)) 15#32

/-- Field `e` of the packed word `w`, as a number (an integer, read as a real). -/
def nib (w : BitVec 32) (e : Fin 8) : EReal := (((nibW w e).toInt : ℝ) : EReal)

/-- The packed row, the field and the group of row `K` of the unpacked weight matrix. -/
def kRow (K : Fin 8192) : Fin 1024 := ⟨K.val / 8, by have := K.isLt; omega⟩
def kNib (K : Fin 8192) : Fin 8 := ⟨K.val % 8, by omega⟩
def kGrp (K : Fin 8192) : Fin 64 := ⟨K.val / 128, by have := K.isLt; omega⟩

/-- Row `1024 k + 256 c + j` of the unpacked matrix: chunk `c` of K-tile `k`, offset `j`. -/
def kAt (k : Fin 8) (c : Fin 4) (j : Fin 256) : Fin 8192 :=
  ⟨1024 * k.val + 256 * c.val + j.val, by have := k.isLt; have := c.isLt; have := j.isLt; omega⟩

/-- Row `128 g + j`: element `j` of group `g`. -/
def gAt (g : Fin 64) (j : Fin 128) : Fin 8192 := ⟨128 * g.val + j.val, by have := g.isLt; have := j.isLt; omega⟩

/-- The unpacked weight at `(K, N)` as an integer-valued number: field `K % 8` of packed word `(K / 8, N)`. -/
def uAt (wq : Arr 1024 8192 (BitVec 32)) (K N : Fin 8192) : EReal := nib (wq (ix2 (kRow K) N)) (kNib K)

/-- The scaled weight WITHOUT its zero point at `(K, N)`: `u · s`. -/
def dq (wq : Arr 1024 8192 (BitVec 32)) (sc : Arr 64 8192 EReal) (K N : Fin 8192) : EReal :=
  uAt wq K N * sc (ix2 (kGrp K) N)

/-- The kernel's main term at `(a, N)`: `x · (u · s)`, summed tile by tile and chunk by chunk. -/
def mainVal (x : Arr 128 8192 EReal) (wq : Arr 1024 8192 (BitVec 32)) (sc : Arr 64 8192 EReal) (a : Fin 128) (N : Fin 8192) : EReal :=
  ∑ k : Fin 8, ∑ c : Fin 4, ∑ j : Fin 256, x (ix2 a (kAt k c j)) * dq wq sc (kAt k c j) N

/-- The kernel's zero-point correction at `(a, N)`: group sums of `x` against `z · s`. -/
def corrVal (x : Arr 128 8192 EReal) (sc zr : Arr 64 8192 EReal) (a : Fin 128) (N : Fin 8192) : EReal :=
  ∑ g : Fin 64, (∑ j : Fin 128, x (ix2 a (gAt g j))) * (zr (ix2 g N) * sc (ix2 g N))

/-- What the kernel's program computes at `(a, N)`. -/
def kerVal (x : Arr 128 8192 EReal) (wq : Arr 1024 8192 (BitVec 32)) (sc zr : Arr 64 8192 EReal) (a : Fin 128) (N : Fin 8192) : EReal :=
  mainVal x wq sc a N - corrVal x sc zr a N

/-- What the reference computes at `(a, N)`: `Σ_K x · ((u − z) · s)`. -/
def refVal (x : Arr 128 8192 EReal) (wq : Arr 1024 8192 (BitVec 32)) (sc zr : Arr 64 8192 EReal) (a : Fin 128) (N : Fin 8192) : EReal :=
  ∑ K : Fin 8192, x (ix2 a K) * ((uAt wq K N - zr (ix2 (kGrp K) N)) * sc (ix2 (kGrp K) N))

/-- Every entry is a real number. -/
def AllReal {n0 n1 : Nat} (x : Arr n0 n1 EReal) : Prop := ∀ i, ∃ r : ℝ, x i = (r : EReal)

end Cert.QMM

end
-- ==== Proof.LibDot.lean ====
/-
  The product of an N × K matrix by a K × M matrix, read at an index.

  A product whose dimension numbers contract axis 1 of the left operand with axis 0 of the right and carry no batch
  axis has, at (n, j), the value Σ_κ l (n, κ) · r (κ, j). Stated for any dimension-numbers record whose lists have
  those values, generically in the sizes and the operands' formats, at the ideal values (a float is an extended
  real): for the host product, for the accumulating block product, and for the bare sum over the record's
  contraction index that both reduce to.
-/
import Idealize.ShloMosaic.PureOps.Ideal
import Idealize.ShloMosaic.PureOps.Ideal.Laws
import Idealize.ShloMosaic.Lib.ValueIdx
import Idealize.ShloMosaic.Lib.StackMember

noncomputable section

open scoped BigOperators

namespace Cert.LibDot

open Idealize.ShloMosaic Idealize.ShloMosaic.ValueIdx

/-- A product record of an N × K by a K × M matrix whose lists are those of the plain product (contract axis 1 of the
    left with axis 0 of the right, no batch axis) is the plain product's record: the lists agree and the
    well-formedness is a proposition. -/
theorem dot_eq_plain {N K M : Nat} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = []) :
    d = DotDims.plain N K M := by
  cases d
  simp only at hlc hrc hln hrn hlb hrb
  subst hlc hrc hln hrn hlb hrb
  rfl

/-- THE CONTRACTION'S SUM AT (n, j): over the record's contraction index, the left operand read at its left index
    times the right operand read at its right index, is the sum over κ of l (n, κ) · r (κ, j). -/
theorem contr_sum_rows {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![N, K]⟩ φ₁) (r : FVec Ideal ⟨2, ![K, M]⟩ φ₂) (n : Fin N) (j : Fin M) :
    ∑ k : d.contr.Idx, l (d.lhsIdx (ix2 n j) k) * r (d.rhsIdx (ix2 n j) k) = ∑ κ : Fin K, l (ix2 n κ) * r (ix2 κ j) := by
  rw [dot_eq_plain d hlc hrc hln hrn hlb hrb]
  exact (Ideal.dotGeneral_apply (DotDims.plain N K M) none .single l r (ix2 n j)).symm.trans
    (StackMember.dotGeneral_plain_apply none l r n j)

/-- THE HOST MATRIX PRODUCT READ AT (n, j): Σ_κ l (n, κ) · r (κ, j). -/
theorem dot_rows_apply {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![N, K]⟩ φ₁) (r : FVec Ideal ⟨2, ![K, M]⟩ φ₂) (n : Fin N) (j : Fin M) :
    Host.dotGeneral (F := Ideal) d prec l r (ix2 n j) = ∑ κ : Fin K, l (ix2 n κ) * r (ix2 κ j) := by
  show FloatOps.dotGeneral d prec .single l r (ix2 n j) = _
  rw [Ideal.dotGeneral_apply]
  exact contr_sum_rows d hlc hrc hln hrn hlb hrb l r n j

/-- THE ACCUMULATING BLOCK PRODUCT READ AT (n, j): the accumulator's entry plus Σ_κ l (n, κ) · r (κ, j). -/
theorem matmul_rows_apply {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![N, K]⟩ φ₁) (r : FVec Ideal ⟨2, ![K, M]⟩ φ₂) (acc : FVec Ideal ⟨2, ![N, M]⟩ .f32)
    (n : Fin N) (j : Fin M) :
    FloatOps.matmul d prec l r acc (ix2 n j) = acc (ix2 n j) + ∑ κ : Fin K, l (ix2 n κ) * r (ix2 κ j) := by
  rw [Ideal.matmul_apply]
  exact congrArg (acc (ix2 n j) + ·) (contr_sum_rows d hlc hrc hln hrn hlb hrb l r n j)

end Cert.LibDot

end
-- ==== Proof.Body.lean ====
/-
  What one grid point's body adds, read at an index. The body holds the K-tile's packed block `v3` (128 packed rows ×
  2048 columns), its scales `v4` (8 groups × 2048) and four 256-column chunks of `x`; chunk `c` unpacks packed rows
  32 c … 32 c + 31 into 256 rows (row 8 p + e is field `e` of packed row `p`), scales row `r` by group `2 c + r / 128`,
  and multiplies. What it stores is the previous contents plus the four chunk products.
-/
import proofs.«414744_j49718541418971_3_alg».proof.Proof.Gen.KernelIdeal.Skeleton
import proofs.«414744_j49718541418971_3_alg».proof.Proof.Spec
import proofs.«414744_j49718541418971_3_alg».proof.Proof.LibDot
import Idealize.ShloMosaic.Lib.Pipeline.Value
import Idealize.ShloMosaic.Lib.ValueLayout
import Idealize.ShloMosaic.PureOps.Ideal.Laws

noncomputable section

open scoped BigOperators

namespace Cert.QMM

open Idealize.ShloMosaic Idealize.ShloMosaic.ValueIdx Cert.KernelIdeal Cert.KernelIdeal.Gen

/-- Row `256 c + j` of the tile: its packed row in the block, its field, its group in the block. -/
def pRow (c : Fin 4) (j : Fin 256) : Fin 128 := ⟨32 * c.val + j.val / 8, by have := c.isLt; have := j.isLt; omega⟩
def pNib (j : Fin 256) : Fin 8 := ⟨j.val % 8, by omega⟩
def pGrp (c : Fin 4) (j : Fin 256) : Fin 8 := ⟨2 * c.val + j.val / 128, by have := c.isLt; have := j.isLt; omega⟩

/-- The tile's scaled weight, without its zero point, at row `256 c + j` and column `b`. -/
def tileW (v3 : Vec Ideal S128x2048 .i32) (v4 : Vec Ideal S8x2048 .f32) (c : Fin 4) (j : Fin 256) (b : Fin 2048) : EReal :=
  nib (v3 (ix2 (pRow c j) b)) (pNib j) * v4 (ix2 (pGrp c j) b)

/-- The reset block is zero. -/
theorem pay2_zero (a : Fin 128) (b : Fin 2048) : k0_pay2 (F := Ideal) (ix2 a b) = 0 := by
  unfold k0_pay2
  exact Ideal.ofBits_zero_f32

/-- The shift amounts read at field e: the word e · 4. -/
private theorem pay3_apply (e : Fin 8) : k0_pay3 (ix3 (0 : Fin 1) e (0 : Fin 1)) = shiftOf e := by
  unfold k0_pay3
  show IntOp.muli (iota .tc S1x8x1 32 [1] iota_S1x8x1_d1_w32 (ix3 (0 : Fin 1) e (0 : Fin 1))) 4#32 = _
  rw [iota_single_apply]

/-- Unpacking read at (p, e, b): field e of the packed word at (p, b). -/
private theorem unpack_apply (x : IVec S32x2048 32) (p : Fin 32) (e : Fin 8) (b : Fin 2048) :
    (sitofp .bf16 (andi (shrsi (broadcastTo S32x8x2048 (shapeCast S32x1x2048 x shapeCasts_S32x2048_S32x1x2048)
        broadcasts_S32x1x2048_S32x8x2048) (broadcastTo S32x8x2048 k0_pay3 broadcasts_S1x8x1_S32x8x2048))
      (broadcast S32x8x2048 15#32)) : FVec Ideal S32x8x2048 .bf16) (ix3 p e b) = nib (x (ix2 p b)) e := by
  have h1 : broadcastTo S32x8x2048 (shapeCast S32x1x2048 x shapeCasts_S32x2048_S32x1x2048)
      broadcasts_S32x1x2048_S32x8x2048 (ix3 p e b) = x (ix2 p b) := by
    refine (broadcastTo_apply _ _ (ix3 p e b) (ix3 p (0 : Fin 1) b) ?_).trans ?_
    · intro a
      match a with
      | ⟨0, _⟩ => rfl
      | ⟨1, _⟩ => rfl
      | ⟨2, _⟩ => rfl
    · refine shapeCast_apply x _ _ (ix2 p b) ?_
      rw [Shape.rowMajor_val_two, Shape.rowMajor_val_three]
      show p.val * 2048 + b.val = (p.val * 1 + 0) * 2048 + b.val
      omega
  have h2 : broadcastTo S32x8x2048 k0_pay3 broadcasts_S1x8x1_S32x8x2048 (ix3 p e b) = shiftOf e := by
    refine (broadcastTo_apply _ _ (ix3 p e b) (ix3 (0 : Fin 1) e (0 : Fin 1)) ?_).trans (pay3_apply e)
    intro a
    match a with
    | ⟨0, _⟩ => rfl
    | ⟨1, _⟩ => rfl
    | ⟨2, _⟩ => rfl
  show (((IntOp.andi (IntOp.shrsi .vector
      (broadcastTo S32x8x2048 (shapeCast S32x1x2048 x shapeCasts_S32x2048_S32x1x2048) broadcasts_S32x1x2048_S32x8x2048 (ix3 p e b))
      (broadcastTo S32x8x2048 k0_pay3 broadcasts_S1x8x1_S32x8x2048 (ix3 p e b))) 15#32).toInt : ℝ) : EReal) = _
  rw [h1, h2]
  rfl

/-- The scales spread over a 32 × 8 × 2048 block, read at (p, e, b): the scale of group p / 16 at column b. -/
private theorem spread_apply (y : FVec Ideal S2x1x1x2048 .bf16) (p : Fin 32) (e : Fin 8) (b : Fin 2048) (g : Fin 2)
    (hg : g.val = p.val / 16) :
    shapeCast S32x8x2048 (broadcastTo S2x16x8x2048 y broadcasts_S2x1x1x2048_S2x16x8x2048)
      shapeCasts_S2x16x8x2048_S32x8x2048 (ix3 p e b) = y (ix4 g (0 : Fin 1) (0 : Fin 1) b) := by
  have hr : (p.val % 16) < 16 := Nat.mod_lt _ (by omega)
  refine (shapeCast_apply _ _ (ix3 p e b) (ix4 g (⟨p.val % 16, hr⟩ : Fin 16) e b) ?_).trans ?_
  · rw [Shape.rowMajor_val_three, Shape.rowMajor_val_four]
    show ((g.val * 16 + p.val % 16) * 8 + e.val) * 2048 + b.val = (p.val * 8 + e.val) * 2048 + b.val
    omega
  · refine broadcastTo_apply _ _ _ (ix4 g (0 : Fin 1) (0 : Fin 1) b) ?_
    intro a
    match a with
    | ⟨0, _⟩ => rfl
    | ⟨1, _⟩ => rfl
    | ⟨2, _⟩ => rfl
    | ⟨3, _⟩ => rfl

/-- A 2 × 2048 block viewed 2 × 1 × 1 × 2048 (twice cast), read at (g, 0, 0, b). -/
private theorem cast4_apply (y : FVec Ideal S2x2048 .bf16) (g : Fin 2) (b : Fin 2048) :
    shapeCast S2x1x1x2048 (shapeCast S2x1x1x2048 y shapeCasts_S2x2048_S2x1x1x2048) shapeCasts_S2x1x1x2048_S2x1x1x2048
      (ix4 g (0 : Fin 1) (0 : Fin 1) b) = y (ix2 g b) := by
  rw [shapeCast_self]
  refine shapeCast_apply y _ _ (ix2 g b) ?_
  rw [Shape.rowMajor_val_two, Shape.rowMajor_val_four]
  show g.val * 2048 + b.val = ((g.val * 1 + 0) * 1 + 0) * 2048 + b.val
  omega

/-- The 32 × 8 × 2048 product viewed 256 × 2048, read at (j, b): row j is field j % 8 of packed row j / 8. -/
private theorem weight_apply (u s : FVec Ideal S32x8x2048 .bf16) (j : Fin 256) (b : Fin 2048) (p : Fin 32) (e : Fin 8)
    (hp : p.val = j.val / 8) (he : e.val = j.val % 8) :
    shapeCast S256x2048 (mulf u s) shapeCasts_S32x8x2048_S256x2048 (ix2 j b) = u (ix3 p e b) * s (ix3 p e b) := by
  refine (shapeCast_apply _ _ (ix2 j b) (ix3 p e b) ?_).trans (mulf_apply u s _)
  rw [Shape.rowMajor_val_two, Shape.rowMajor_val_three]
  show (p.val * 8 + e.val) * 2048 + b.val = j.val * 2048 + b.val
  omega

/-- A 32-row slice of the packed block at row offset o. -/
private theorem slice3_apply (v3 : Vec Ideal S128x2048 .i32) (o : Nat) (h : S128x2048.Slices ![o, 0] S32x2048)
    (p : Fin 32) (b : Fin 2048) (q : Fin 128) (hq : q.val = o + p.val) :
    extractStridedSlice S32x2048 ![o, 0] v3 h (ix2 p b) = v3 (ix2 q b) := by
  refine extractStridedSlice_apply _ v3 h (ix2 p b) (ix2 q b) ?_
  intro a
  match a with
  | ⟨0, _⟩ => exact hq
  | ⟨1, _⟩ => show b.val = 0 + b.val; omega

/-- A 2-row slice of the scale block at row offset o, narrowed (the narrowing keeps the number). -/
private theorem slice4_apply (v4 : Vec Ideal S8x2048 .f32) (o : Nat) (h : S8x2048.Slices ![o, 0] S2x2048)
    (g : Fin 2) (b : Fin 2048) (q : Fin 8) (hq : q.val = o + g.val) :
    (truncf .bf16 (extractStridedSlice S2x2048 ![o, 0] v4 h) bitsLt_bf16_f32 : FVec Ideal S2x2048 .bf16) (ix2 g b) = v4 (ix2 q b) := by
  show extractStridedSlice S2x2048 ![o, 0] v4 h (ix2 g b) = v4 (ix2 q b)
  refine extractStridedSlice_apply _ v4 h (ix2 g b) (ix2 q b) ?_
  intro a
  match a with
  | ⟨0, _⟩ => exact hq
  | ⟨1, _⟩ => show b.val = 0 + b.val; omega

/-- ONE CHUNK'S WEIGHT at (j, b): chunk c's packed rows start at row o3 = 32 c of the block, its groups at row
    o4 = 2 c of the scales. -/
private theorem chunk_weight (v3 : Vec Ideal S128x2048 .i32) (v4 : Vec Ideal S8x2048 .f32) (c : Fin 4)
    (o3 : Nat) (h3 : S128x2048.Slices ![o3, 0] S32x2048) (ho3 : o3 = 32 * c.val)
    (o4 : Nat) (h4 : S8x2048.Slices ![o4, 0] S2x2048) (ho4 : o4 = 2 * c.val) (j : Fin 256) (b : Fin 2048) :
    shapeCast S256x2048
      (mulf
        (sitofp .bf16 (andi (shrsi (broadcastTo S32x8x2048 (shapeCast S32x1x2048 (extractStridedSlice S32x2048 ![o3, 0] v3 h3)
            shapeCasts_S32x2048_S32x1x2048) broadcasts_S32x1x2048_S32x8x2048)
          (broadcastTo S32x8x2048 k0_pay3 broadcasts_S1x8x1_S32x8x2048)) (broadcast S32x8x2048 15#32)) : FVec Ideal S32x8x2048 .bf16)
        (shapeCast S32x8x2048 (broadcastTo S2x16x8x2048
          (shapeCast S2x1x1x2048 (shapeCast S2x1x1x2048 (truncf .bf16 (extractStridedSlice S2x2048 ![o4, 0] v4 h4) bitsLt_bf16_f32)
            shapeCasts_S2x2048_S2x1x1x2048) shapeCasts_S2x1x1x2048_S2x1x1x2048)
          broadcasts_S2x1x1x2048_S2x16x8x2048) shapeCasts_S2x16x8x2048_S32x8x2048))
      shapeCasts_S32x8x2048_S256x2048 (ix2 j b) = tileW v3 v4 c j b := by
  have hj := j.isLt
  have hc := c.isLt
  have hp : j.val / 8 < 32 := by omega
  have hg : j.val / 128 < 2 := by omega
  refine (weight_apply _ _ j b ⟨j.val / 8, hp⟩ (pNib j) rfl rfl).trans ?_
  rw [unpack_apply, spread_apply _ _ _ _ ⟨j.val / 128, hg⟩ (by show j.val / 128 = j.val / 8 / 16; omega), cast4_apply,
    slice3_apply v3 o3 h3 _ b (pRow c j) (by show 32 * c.val + j.val / 8 = o3 + j.val / 8; omega),
    slice4_apply v4 o4 h4 _ b (pGrp c j) (by show 2 * c.val + j.val / 128 = o4 + j.val / 128; omega)]
  rfl

/-- The block product into the zero accumulator, read at (a, b): Σ_j x (a, j) · w (j, b). -/
private theorem chunk_mm (x : Vec Ideal S128x256 .bf16) (w : FVec Ideal S256x2048 .bf16) (a : Fin 128) (b : Fin 2048) :
    matmul dot_S128x256_S256x2048_S128x2048_1_0_0_1_n_n none
      (shapeCast S128x256 x shapeCasts_S128x256_S128x256 : FVec Ideal S128x256 .bf16) w
      (constant S128x2048 .f32 0x00000000#32) (ix2 a b) = ∑ j : Fin 256, x (ix2 a j) * w (ix2 j b) := by
  rw [shapeCast_self]
  show FloatOps.matmul dot_S128x256_S256x2048_S128x2048_1_0_0_1_n_n none (x : FVec Ideal S128x256 .bf16) w
    (constant S128x2048 .f32 0x00000000#32) (ix2 a b) = _
  rw [Cert.LibDot.matmul_rows_apply _ rfl rfl rfl rfl rfl rfl]
  show Ideal.ofBits .f32 0x00000000#32 + _ = _
  rw [Ideal.ofBits_zero_f32, zero_add]

/-- ONE CHUNK'S PRODUCT at (a, b): Σ_j x (a, j) · w_c (j, b). -/
private theorem chunk_val (v3 : Vec Ideal S128x2048 .i32) (v4 : Vec Ideal S8x2048 .f32) (c : Fin 4)
    (o3 : Nat) (h3 : S128x2048.Slices ![o3, 0] S32x2048) (ho3 : o3 = 32 * c.val)
    (o4 : Nat) (h4 : S8x2048.Slices ![o4, 0] S2x2048) (ho4 : o4 = 2 * c.val)
    (x : Vec Ideal S128x256 .bf16) (a : Fin 128) (b : Fin 2048) :
    matmul dot_S128x256_S256x2048_S128x2048_1_0_0_1_n_n none
      (shapeCast S128x256 x shapeCasts_S128x256_S128x256 : FVec Ideal S128x256 .bf16)
      (shapeCast S256x2048
        (mulf
          (sitofp .bf16 (andi (shrsi (broadcastTo S32x8x2048 (shapeCast S32x1x2048 (extractStridedSlice S32x2048 ![o3, 0] v3 h3)
              shapeCasts_S32x2048_S32x1x2048) broadcasts_S32x1x2048_S32x8x2048)
            (broadcastTo S32x8x2048 k0_pay3 broadcasts_S1x8x1_S32x8x2048)) (broadcast S32x8x2048 15#32)) : FVec Ideal S32x8x2048 .bf16)
          (shapeCast S32x8x2048 (broadcastTo S2x16x8x2048
            (shapeCast S2x1x1x2048 (shapeCast S2x1x1x2048 (truncf .bf16 (extractStridedSlice S2x2048 ![o4, 0] v4 h4) bitsLt_bf16_f32)
              shapeCasts_S2x2048_S2x1x1x2048) shapeCasts_S2x1x1x2048_S2x1x1x2048)
            broadcasts_S2x1x1x2048_S2x16x8x2048) shapeCasts_S2x16x8x2048_S32x8x2048))
        shapeCasts_S32x8x2048_S256x2048)
      (constant S128x2048 .f32 0x00000000#32) (ix2 a b) = ∑ j : Fin 256, x (ix2 a j) * tileW v3 v4 c j b := by
  rw [chunk_mm]
  exact Finset.sum_congr rfl fun j _ => congrArg (x (ix2 a j) * ·) (chunk_weight v3 v4 c o3 h3 ho3 o4 h4 ho4 j b)

/-- THE BODY'S STORE at `(a, b)`: the previous contents plus, over the four chunks, `Σ_j x_c[a, j] · w_c[j, b]`. -/
theorem body_val (v3 : Vec Ideal S128x2048 .i32) (v4 : Vec Ideal S8x2048 .f32) (xc : Fin 4 → Vec Ideal S128x256 .bf16)
    (prev : Vec Ideal S128x2048 .f32) (a : Fin 128) (b : Fin 2048) :
    k0_pay1 (F := Ideal) (k0_pay7 v3 v4 k0_pay3 (k0_pay4 v3 v4 (xc 0)) (k0_pay5 v3) (k0_pay6 v4) (xc 1) (xc 2))
        (k0_pay8 v3 k0_pay3) (k0_pay9 v4) (xc 3) prev (ix2 a b)
      = prev (ix2 a b) + ∑ c : Fin 4, ∑ j : Fin 256, xc c (ix2 a j) * tileW v3 v4 c j b := by
  unfold k0_pay1 k0_pay7 k0_pay4 k0_pay5 k0_pay6 k0_pay8 k0_pay9
  simp only [addf_apply, broadcast_apply]
  rw [chunk_val v3 v4 0 0 _ rfl 0 _ rfl, chunk_val v3 v4 1 32 _ rfl 2 _ rfl, chunk_val v3 v4 2 64 _ rfl 4 _ rfl,
    chunk_val v3 v4 3 96 _ rfl 6 _ rfl, shapeCast_self, Fin.sum_univ_four, Ideal.ofBits_def, Ideal.ofBits_zero_f32, zero_add]

end Cert.QMM

end
-- ==== Proof.Accum.lean ====
/-
  The output block of a column tile accumulates over the eight K-tiles. Grid point `t` is (column tile `t / 8`,
  K-tile `t % 8`); its body adds to the resident block, at `(a, b)`,
      Σ_{r<4} Σ_{j<256} x[a, 1024 (t%8) + 256 r + j] · (u · s)[1024 (t%8) + 256 r + j, 2048 (t/8) + b],
  starting from zero at K-tile 0. So after K-tile 7 the block holds the kernel's main term of the specification.
-/
import proofs.«414744_j49718541418971_3_alg».proof.Proof.Pieces
import proofs.«414744_j49718541418971_3_alg».proof.Proof.Body

set_option maxRecDepth 16384

noncomputable section

open scoped BigOperators
open Idealize.ShloMosaic Idealize.ShloMosaic.TcCoe Idealize.SL.Sem Idealize.ShloMosaic.ValueIdx

namespace Cert.QMM

open Cert.KernelIdeal Cert.KernelIdeal.Gen

variable (m : (ℓ : Loc nD τ sig) → Buf (Elt Ideal) ℓ)

/-- The blocks the body finds at point `t`, and the arrays they are blocks of, at their literal types. -/
abbrev xB (c : Dev nD) (t : Fin cfg0.N) : Vec Ideal S128x8192 .bf16 := iblk m c 0 t
abbrev wB (c : Dev nD) (t : Fin cfg0.N) : Vec Ideal S128x2048 .i32 := iblk m c 1 t
abbrev sB (c : Dev nD) (t : Fin cfg0.N) : Vec Ideal S8x2048 .f32 := iblk m c 2 t
abbrev X (c : Dev nD) : Vec Ideal S128x8192 .bf16 := V m c main_v0
abbrev WQ (c : Dev nD) : Vec Ideal S1024x8192 .i32 := V m c main_arg1
abbrev SC (c : Dev nD) : Vec Ideal S64x8192 .f32 := V m c main_arg2

theorem lt32 (t : Fin cfg0.N) : t.val < 32 := lt_of_lt_of_eq t.isLt (show cfg0.N = 32 from N_0)

/-- The K-tile of point `t`, and where its block's rows, groups and columns sit in the arrays. -/
def ktile (t : Fin cfg0.N) : Fin 8 := ⟨t.val % 8, by omega⟩
def rowOf (t : Fin cfg0.N) (p : Fin 128) : Fin 1024 := ⟨128 * (t.val % 8) + p.val, by have := p.isLt; omega⟩
def grpOf (t : Fin cfg0.N) (g : Fin 8) : Fin 64 := ⟨8 * (t.val % 8) + g.val, by have := g.isLt; omega⟩
def colOf (t : Fin cfg0.N) (b : Fin 2048) : Fin 8192 := ⟨2048 * (t.val / 8) + b.val, by have := lt32 t; have := b.isLt; omega⟩

/-- The printed index maps over the grid: the weight and scale windows are at (K-tile, column tile), `x`'s window
    never moves, the output's is at (0, column tile). -/
theorem idx_facts : ∀ t : Fin cfg0.N, win0_0.index t (0 : Fin 2) = 0 ∧ win0_0.index t (1 : Fin 2) = 0
    ∧ win0_1.index t (0 : Fin 2) = t.val % 8 ∧ win0_1.index t (1 : Fin 2) = t.val / 8
    ∧ win0_2.index t (0 : Fin 2) = t.val % 8 ∧ win0_2.index t (1 : Fin 2) = t.val / 8
    ∧ win0_3.index t (0 : Fin 2) = 0 ∧ win0_3.index t (1 : Fin 2) = t.val / 8 :=
  (by decide +kernel : ∀ t : Fin grid0.N, _)

/-- The offsets of the four loads of `x`: columns from `1024 (t % 8) + 256 r`. -/
theorem xoff_facts : ∀ (t : Fin cfg0.N) (r : Fin 4),
    k0_off1 (grid0.coords t) (BitVec.ofNat 32 (256 * r.val)) = ![0, 1024 * (t.val % 8) + 256 * r.val] :=
  (by decide +kernel : ∀ (t : Fin grid0.N) (r : Fin 4), _)

/-- The weight block at point `t` is the packed array at the block's place. -/
theorem wB_apply (c : Dev nD) (t : Fin cfg0.N) (p : Fin 128) (b : Fin 2048) :
    wB m c t (ix2 p b) = WQ m c (ix2 (rowOf t p) (colOf t b)) := by
  obtain ⟨-, -, e0, e1, -, -, -, -⟩ := idx_facts t
  show iblk m c 1 t (ix2 p b) = _
  unfold iblk
  rw [View.read_apply]
  show V m c main_arg1 _ = V m c main_arg1 _
  congr 1
  funext a
  apply Fin.ext
  match a with
  | ⟨0, _⟩ => show win0_1.index t (0 : Fin 2) * 128 + 1 * p.val = 128 * (t.val % 8) + p.val; omega
  | ⟨1, _⟩ => show win0_1.index t (1 : Fin 2) * 2048 + 1 * b.val = 2048 * (t.val / 8) + b.val; omega

/-- The scale block at point `t` is the scale array at the block's place. -/
theorem sB_apply (c : Dev nD) (t : Fin cfg0.N) (g : Fin 8) (b : Fin 2048) :
    sB m c t (ix2 g b) = SC m c (ix2 (grpOf t g) (colOf t b)) := by
  obtain ⟨-, -, -, -, e0, e1, -, -⟩ := idx_facts t
  show iblk m c 2 t (ix2 g b) = _
  unfold iblk
  rw [View.read_apply]
  show V m c main_arg2 _ = V m c main_arg2 _
  congr 1
  funext a
  apply Fin.ext
  match a with
  | ⟨0, _⟩ => show win0_2.index t (0 : Fin 2) * 8 + 1 * g.val = 8 * (t.val % 8) + g.val; omega
  | ⟨1, _⟩ => show win0_2.index t (1 : Fin 2) * 2048 + 1 * b.val = 2048 * (t.val / 8) + b.val; omega

/-- The resident block of `x` is `x` itself: its window never moves. -/
theorem xB_apply (c : Dev nD) (t : Fin cfg0.N) (a : Fin 128) (K : Fin 8192) :
    xB m c t (ix2 a K) = X m c (ix2 a K) := by
  obtain ⟨e0, e1, -, -, -, -, -, -⟩ := idx_facts t
  show iblk m c 0 t (ix2 a K) = _
  unfold iblk
  rw [View.read_apply]
  show V m c main_v0 _ = V m c main_v0 _
  congr 1
  funext d
  apply Fin.ext
  match d with
  | ⟨0, _⟩ => show win0_0.index t (0 : Fin 2) * 128 + 1 * a.val = a.val; omega
  | ⟨1, _⟩ => show win0_0.index t (1 : Fin 2) * 8192 + 1 * K.val = K.val; omega

/-- Chunk `r` of the resident `x` at point `t` is `x` at columns `1024 (t % 8) + 256 r + j`. -/
theorem xChunk_apply (c : Dev nD) (t : Fin cfg0.N) (r : Fin 4) (a : Fin 128) (j : Fin 256) :
    xChunk (grid0.coords t) (xB m c t) r (ix2 a j) = X m c (ix2 a (kAt (ktile t) r j)) := by
  have eo := xoff_facts t r
  unfold xChunk
  show xB m c t ((Rect.unit (s := S128x8192) (k0_off1 (grid0.coords t) (BitVec.ofNat 32 (256 * r.val))) S128x256.size (k0_off1_inb (grid0.coords t) r)).emb (ix2 a j)) = _
  have he : (Rect.unit (s := S128x8192) (k0_off1 (grid0.coords t) (BitVec.ofNat 32 (256 * r.val))) S128x256.size (k0_off1_inb (grid0.coords t) r)).emb (ix2 a j)
      = ix2 a (kAt (ktile t) r j) := by
    funext d
    apply Fin.ext
    rw [Rect.emb_apply]
    match d with
    | ⟨0, _⟩ =>
      show k0_off1 (grid0.coords t) (BitVec.ofNat 32 (256 * r.val)) 0 + 1 * a.val = a.val
      rw [eo]; show 0 + 1 * a.val = a.val; omega
    | ⟨1, _⟩ =>
      show k0_off1 (grid0.coords t) (BitVec.ofNat 32 (256 * r.val)) 1 + 1 * j.val = 1024 * (t.val % 8) + 256 * r.val + j.val
      rw [eo]; show 1024 * (t.val % 8) + 256 * r.val + 1 * j.val = 1024 * (t.val % 8) + 256 * r.val + j.val; omega
  rw [he, xB_apply]

/-- WHAT POINT `t` ADDS at `(a, b)`. -/
def tileSum (c : Dev nD) (t : Fin cfg0.N) (a : Fin 128) (b : Fin 2048) : EReal :=
  ∑ r : Fin 4, ∑ j : Fin 256, X m c (ix2 a (kAt (ktile t) r j)) * dq (WQ m c) (SC m c) (kAt (ktile t) r j) (colOf t b)

/-- The tile's weight at row `256 r + j` is the specification's scaled weight at row `1024 (t%8) + 256 r + j`. -/
theorem tileW_eq (c : Dev nD) (t : Fin cfg0.N) (r : Fin 4) (j : Fin 256) (b : Fin 2048) :
    tileW (wB m c t) (sB m c t) r j b = dq (WQ m c) (SC m c) (kAt (ktile t) r j) (colOf t b) := by
  unfold tileW dq uAt
  rw [wB_apply, sB_apply]
  have e1 : rowOf t (pRow r j) = kRow (kAt (ktile t) r j) := Fin.ext (by
    show 128 * (t.val % 8) + (32 * r.val + j.val / 8) = (1024 * (t.val % 8) + 256 * r.val + j.val) / 8; omega)
  have e2 : pNib j = kNib (kAt (ktile t) r j) := Fin.ext (by
    show j.val % 8 = (1024 * (t.val % 8) + 256 * r.val + j.val) % 8; omega)
  have e3 : grpOf t (pGrp r j) = kGrp (kAt (ktile t) r j) := Fin.ext (by
    show 8 * (t.val % 8) + (2 * r.val + j.val / 128) = (1024 * (t.val % 8) + 256 * r.val + j.val) / 128; omega)
  rw [e1, e2, e3]

/-- The body at point `t` over previous contents `prev`: `prev` plus the point's addend. -/
theorem bodyOut_apply (c : Dev nD) (t : Fin cfg0.N) (prev : Vec Ideal S128x2048 .f32) (a : Fin 128) (b : Fin 2048) :
    bodyOut (grid0.coords t) (xB m c t) (wB m c t) (sB m c t) prev (ix2 a b) = prev (ix2 a b) + tileSum m c t a b := by
  unfold bodyOut
  refine (body_val (wB m c t) (sB m c t) (fun r => xChunk (grid0.coords t) (xB m c t) r) prev a b).trans ?_
  unfold tileSum
  refine congrArg (prev (ix2 a b) + ·) (Finset.sum_congr rfl fun r _ => Finset.sum_congr rfl fun j _ => ?_)
  rw [xChunk_apply, tileW_eq]

/-- The addend of the point numbered `u` (zero past the grid). -/
def addend (c : Dev nD) (a : Fin 128) (b : Fin 2048) (u : Nat) : EReal :=
  if h : u < cfg0.N then tileSum m c ⟨u, h⟩ a b else 0

theorem addend_eq (c : Dev nD) (a : Fin 128) (b : Fin 2048) (u : Nat) (h : u < cfg0.N) :
    addend m c a b u = tileSum m c ⟨u, h⟩ a b := dif_pos h

/-- THE RUNNING SUM: after point `n` the output's buffer holds the addends of the points of its column tile so far. -/
theorem outsAt_eq (c : Dev nD) (a : Fin 128) (b : Fin 2048) : ∀ (n : Nat) (h : n < cfg0.N),
    outsAt0 m c n h (ix2 a b) = ∑ s ∈ Finset.range (n % 8 + 1), addend m c a b (8 * (n / 8) + s)
  | 0, h => by
    rw [outsAt0_A m c ⟨0, h⟩ rfl, out_A]
    refine (bodyOut_apply m c ⟨0, h⟩ _ a b).trans ?_
    rw [pay2_zero, zero_add]
    show _ = ∑ s ∈ Finset.range 1, addend m c a b (0 + s)
    rw [Finset.sum_range_one, addend_eq m c a b _ h]
  | n + 1, h => by
    by_cases h0 : (n + 1) % 8 = 0
    · rw [outsAt0_A m c ⟨n + 1, h⟩ h0, out_A]
      refine (bodyOut_apply m c ⟨n + 1, h⟩ _ a b).trans ?_
      rw [pay2_zero, zero_add, h0, Finset.sum_range_one]
      have e : 8 * ((n + 1) / 8) + 0 = n + 1 := by omega
      rw [e, addend_eq m c a b _ h]
    · rw [outsAt0_B m c ⟨n + 1, h⟩ h0, out_B]
      refine (bodyOut_apply m c ⟨n + 1, h⟩ _ a b).trans ?_
      show outsAt0 m c n _ (ix2 a b) + _ = _
      rw [outsAt_eq c a b n (Nat.lt_of_succ_lt h)]
      have e1 : (n + 1) % 8 + 1 = (n % 8 + 1) + 1 := by omega
      have e2 : (n + 1) / 8 = n / 8 := by omega
      have e3 : 8 * (n / 8) + (n % 8 + 1) = n + 1 := by omega
      rw [e1, e2, Finset.sum_range_succ _ (n % 8 + 1), e3, addend_eq m c a b _ h]

/-- AT THE LAST K-TILE of a column tile the buffer holds the specification's main term. -/
theorem outs_at_flush (c : Dev nD) (t : Fin cfg0.N) (ht : t.val % 8 = 7) (a : Fin 128) (b : Fin 2048) :
    outsAt0 m c t.val t.isLt (ix2 a b) = mainVal (X m c) (WQ m c) (SC m c) a (colOf t b) := by
  have hN := lt32 t
  rw [outsAt_eq m c a b t.val t.isLt, ht, Finset.sum_range]
  unfold mainVal
  refine Finset.sum_congr rfl fun k _ => ?_
  have hk : 8 * (t.val / 8) + k.val < cfg0.N :=
    lt_of_lt_of_eq (by have := k.isLt; omega : 8 * (t.val / 8) + k.val < 32) (show cfg0.N = 32 from N_0).symm
  rw [addend_eq m c a b _ hk]
  unfold tileSum
  have ek : ktile ⟨8 * (t.val / 8) + k.val, hk⟩ = k := Fin.ext (by show (8 * (t.val / 8) + k.val) % 8 = k.val; have := k.isLt; omega)
  have ec : colOf ⟨8 * (t.val / 8) + k.val, hk⟩ b = colOf t b := Fin.ext (by
    show 2048 * ((8 * (t.val / 8) + k.val) / 8) + b.val = 2048 * (t.val / 8) + b.val; have := k.isLt; omega)
  rw [ek, ec]

end Cert.QMM

end
-- ==== Proof.Tail.lean ====
/-
  The kernel program's zero-point correction on the host, read at an index: the product of the group sums of `x` with
  `zeros · scales` is `corrVal` (Spec).
-/
import proofs.«414744_j49718541418971_3_alg».proof.KernelIdeal
import proofs.«414744_j49718541418971_3_alg».proof.Proof.Gen.KernelIdeal
import proofs.«414744_j49718541418971_3_alg».proof.Proof.Spec
import proofs.«414744_j49718541418971_3_alg».proof.Proof.LibDot
import Idealize.ShloMosaic.PureOps.Ideal.Laws
import Idealize.ShloMosaic.Lib.Pipeline.Value

noncomputable section

open scoped BigOperators

namespace Cert.QMM

open Idealize.ShloMosaic Idealize.ShloMosaic.ValueIdx Cert.KernelIdeal Cert.KernelIdeal.Facts₀

/-- The row-major position of (a, g, j) in the 128 × 64 × 128 view is that of (a, 128 g + j) in the 128 × 8192 array:
    (a · 64 + g) · 128 + j = a · 8192 + (128 g + j). So the reshaped x at (a, g, j) is x at (a, 128 g + j). -/
private theorem reshape_group [Cert.KernelIdeal.Facts] (x : FVec Ideal S128x8192 .f32)
    (h : S128x64x128.Reduces [2] S128x64) (a : Fin 128) (g : Fin 64) (j : Fin 128) :
    shapeCast S128x64x128 x shapeCasts_S128x8192_S128x64x128 (h.lift (ix2 a g) j) = x (ix2 a (gAt g j)) := by
  refine shapeCast_apply x _ _ _ ?_
  rw [Shape.rowMajor_val_two, Shape.rowMajor_val_three]
  show a.val * 8192 + (128 * g.val + j.val) = (a.val * 64 + g.val) * 128 + j.val
  omega

/-- The host's sum of the reshaped x over its last axis, from the zero initial value, at (a, g): the sum of x over
    the 128 columns of group g in row a. -/
private theorem groupSum_apply [Cert.KernelIdeal.Facts] (x : FVec Ideal S128x8192 .f32) (a : Fin 128) (g : Fin 64) :
    Host.reduceAdd (F := Ideal) (shapeCast S128x64x128 x shapeCasts_S128x8192_S128x64x128) (constant (F := Ideal) S_ .f32 0x00000000#32)
        reducesTo_S128x64x128_S128x64_d2 h_S_ (ix2 a g) = ∑ j : Fin 128, x (ix2 a (gAt g j)) := by
  have h : S128x64x128.Reduces [2] S128x64 := by decide
  refine (Ideal.hostReduceAdd_single reducesTo_S128x64x128_S128x64_d2 h _ _ (ix2 a g)).trans ?_
  show Ideal.ofBits .f32 0x00000000#32 + ∑ j : Fin 128, shapeCast S128x64x128 x shapeCasts_S128x8192_S128x64x128 (h.lift (ix2 a g) j) = _
  rw [Ideal.ofBits_zero_f32, zero_add]
  exact Finset.sum_congr rfl fun j _ => reshape_group x h a g j

theorem corr_eq [Cert.KernelIdeal.Facts] (x : FVec Ideal S128x8192 .f32) (sc zr : FVec Ideal S64x8192 .f32) (a : Fin 128) (N : Fin 8192) :
    Host.dotGeneral (F := Ideal) dot_S128x64_S64x8192_S128x8192_1_0_0_1_n_n (some .fp32)
      (Host.reduceAdd (F := Ideal) (shapeCast S128x64x128 x shapeCasts_S128x8192_S128x64x128) (constant (F := Ideal) S_ .f32 0x00000000#32)
        reducesTo_S128x64x128_S128x64_d2 h_S_)
      (mulf zr sc) (ix2 a N) = corrVal x sc zr a N := by
  refine (Cert.LibDot.dot_rows_apply _ rfl rfl rfl rfl rfl rfl _ _ _ a N).trans ?_
  unfold corrVal
  refine Finset.sum_congr rfl fun g _ => ?_
  rw [groupSum_apply x a g]
  rfl

end Cert.QMM

end
-- ==== Proof.Final.lean ====
/-
  The kernel program's run, read: after the region the product array holds the specification's main term (each
  column tile's block is written back after its last K-tile, and those eight-point runs cover the array), and the
  host lines after the region subtract the zero-point correction from it.
-/
import proofs.«414744_j49718541418971_3_alg».proof.Proof.Accum
import proofs.«414744_j49718541418971_3_alg».proof.Proof.Tail
import Idealize.ShloMosaic.Lib.StableHlo.Run

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.QMM

open Cert.KernelIdeal Cert.KernelIdeal.Gen

variable (m : (ℓ : Loc nD τ sig) → Buf (Elt Ideal) ℓ) (ρ : Dev nD → PrngReg)

/-- The product array after the region: the main term, index by index. -/
abbrev G1 (c : Dev nD) : Buf (Elt Ideal) ((c : Thread nD τ).loc main_v1) := arr2 (mainVal (X m c) (WQ m c) (SC m c))

/-- What a writing-back point (the last K-tile of a column tile) writes back is its block of the main term. -/
theorem flushed_eq (c : Dev nD) (t : Fin cfg0.N) (hf : (cfg0.win 3).flush t = true) :
    (dats m 0 c).flushed 3 t = ((cfg0.win 3).blk t).view.read (Elt Ideal) (G1 m c) := by
  obtain ⟨-, -, -, -, -, -, e0, e1⟩ := idx_facts t
  show (cfg0.win 3).cut (grid0.coords t) ((dats m 0 c).after 3 t) = _
  rw [after0_3]
  funext y
  obtain ⟨a, b, rfl⟩ : ∃ (a : Fin 128) (b : Fin 2048), y = ix2 a b := ⟨y 0, y 1, eq_ix2 y⟩
  show outsAt0 m c t.val t.isLt (ix2 a b) = G1 m c (((cfg0.win 3).blk t).view.emb (ix2 a b))
  rw [outs_at_flush m c t ((flush0_3 t).mp hf) a b]
  have he : ((cfg0.win 3).blk t).view.emb (ix2 a b) = ix2 a (colOf t b) := by
    funext d
    apply Fin.ext
    match d with
    | ⟨0, _⟩ => show win0_3.index t (0 : Fin 2) * 128 + 1 * a.val = a.val; omega
    | ⟨1, _⟩ => show win0_3.index t (1 : Fin 2) * 2048 + 1 * b.val = 2048 * (t.val / 8) + b.val; omega
  rw [he]
  rfl

/-- So the product array ends holding the main term: column `N` is covered by the write-back of point `8 (N / 2048) + 7`. -/
theorem final_main (c : Dev nD) : (dats m 0 c).arrAt 3 cfg0.N = G1 m c :=
  (dats m 0 c).arrAt_eq_of_cover 3 (G1 m c) (flushed_eq m c) fun i => by
    have h0 : (i 0).val < 128 := (i 0).isLt
    have h1 : (i 1).val < 8192 := (i 1).isLt
    have hN : cfg0.N = 32 := N_0
    have hlt : 8 * ((i 1).val / 2048) + 7 < cfg0.N := by rw [hN]; omega
    obtain ⟨-, -, -, -, -, -, e0, e1⟩ := idx_facts ⟨8 * ((i 1).val / 2048) + 7, hlt⟩
    refine ⟨⟨8 * ((i 1).val / 2048) + 7, hlt⟩, (flush0_3 _).mpr (by show (8 * ((i 1).val / 2048) + 7) % 8 = 7; omega), ?_⟩
    show i ∈ ((View.whole main_v1).slice (win0_3.rect ⟨8 * ((i 1).val / 2048) + 7, hlt⟩)).set
    rw [View.set_slice_whole, Rect.mem_set_unit]
    intro a
    match a with
    | ⟨0, _⟩ =>
      show win0_3.index ⟨8 * ((i 1).val / 2048) + 7, hlt⟩ (0 : Fin 2) * 128 ≤ (i 0).val ∧ (i 0).val < win0_3.index ⟨8 * ((i 1).val / 2048) + 7, hlt⟩ (0 : Fin 2) * 128 + 128
      rw [e0]; omega
    | ⟨1, _⟩ =>
      show win0_3.index ⟨8 * ((i 1).val / 2048) + 7, hlt⟩ (1 : Fin 2) * 2048 ≤ (i 1).val ∧ (i 1).val < win0_3.index ⟨8 * ((i 1).val / 2048) + 7, hlt⟩ (1 : Fin 2) * 2048 + 2048
      rw [e1]; show (8 * ((i 1).val / 2048) + 7) / 8 * 2048 ≤ (i 1).val ∧ (i 1).val < (8 * ((i 1).val / 2048) + 7) / 8 * 2048 + 2048; omega

/-- At the ideal values the region finds `x` itself in its first window: the change of format before it is the identity. -/
theorem X_eq (c : Dev nD) : X m c = m ((c.tc : Thread nD τ).loc main_arg0) := by
  show V m c main_v0 = _
  dsimp only [Gen.V, Gen.V0]
  simp only [Gen.hostOps0, List.flatten_cons, List.flatten_nil, List.append_nil]
  after_results
  rfl

/-- THE RESULT: the host lines after the region leave, in the result buffer, the main term less the correction. -/
theorem result_eq (c : Dev nD) :
    Pipeline.afterTail₀ cfgs (dats m) 0 (V0 m) [hostOps1] c main_v6
      = arr2 (kerVal (m ((c.tc : Thread nD τ).loc main_arg0)) (m ((c.tc : Thread nD τ).loc main_arg1))
          (m ((c.tc : Thread nD τ).loc main_arg2)) (m ((c.tc : Thread nD τ).loc main_arg3))) := by
  unfold Pipeline.afterTail₀
  show StableHlo.after hostOps1 _ (Proc.devRef .tc main_v6) = _
  after_results
  have e1 : Pipeline.withArrays (cfgs 0).spec c (V0 m c) (fun w => (dats m 0 c).arrAt w (cfgs 0).N) (Proc.devRef .tc main_v1) = G1 m c :=
    (Pipeline.withArrays_arr spec0 launch0.win.arr_inj c _ _ 3).trans (final_main m c)
  have e2 : Pipeline.withArrays (cfgs 0).spec c (V0 m c) (fun w => (dats m 0 c).arrAt w (cfgs 0).N) (Proc.devRef .tc main_arg2)
      = m ((c.tc : Thread nD τ).loc main_arg2) :=
    (Pipeline.withArrays_arr spec0 launch0.win.arr_inj c _ _ 2).trans
      (((dats m 0 c).arrAt_in 2 rfl _).trans ((A_eq m c 2).trans (V_main_arg2 m c)))
  have e0 : Pipeline.withArrays (cfgs 0).spec c (V0 m c) (fun w => (dats m 0 c).arrAt w (cfgs 0).N) (Proc.devRef .tc main_arg0)
      = m ((c.tc : Thread nD τ).loc main_arg0) :=
    (Pipeline.withArrays_of_ne _ c (V0 m c) _ main_arg0 (by exact (by decide : ∀ w, Pipeline.arrRef spec0 w ≠ main_arg0))).trans
      (V_main_arg0 m c)
  have e3 : Pipeline.withArrays (cfgs 0).spec c (V0 m c) (fun w => (dats m 0 c).arrAt w (cfgs 0).N) (Proc.devRef .tc main_arg3)
      = m ((c.tc : Thread nD τ).loc main_arg3) :=
    (Pipeline.withArrays_of_ne _ c (V0 m c) _ main_arg3 (by exact (by decide : ∀ w, Pipeline.arrRef spec0 w ≠ main_arg3))).trans
      (V_main_arg3 m c)
  rw [e1, e2, e0, e3]
  funext i
  obtain ⟨a, N, rfl⟩ : ∃ (a : Fin 128) (N : Fin 8192), i = ix2 a N := ⟨i 0, i 1, eq_ix2 i⟩
  rw [arr2_ix2]
  unfold kerVal
  show (arr2 (mainVal (X m c) (WQ m c) (SC m c)) (ix2 a N) : EReal) - Host.dotGeneral (F := Ideal) dot_S128x64_S64x8192_S128x8192_1_0_0_1_n_n (some .fp32)
      (Host.reduceAdd (F := Ideal) (shapeCast S128x64x128 (m ((c.tc : Thread nD τ).loc main_arg0)) shapeCasts_S128x8192_S128x64x128)
        (constant (F := Ideal) S_ .f32 0x00000000#32) reducesTo_S128x64x128_S128x64_d2 h_S_)
      (mulf (m ((c.tc : Thread nD τ).loc main_arg3)) (m ((c.tc : Thread nD τ).loc main_arg2))) (ix2 a N) = _
  rw [corr_eq, arr2_ix2]
  rw [X_eq m c, show WQ m c = m ((c.tc : Thread nD τ).loc main_arg1) from V_main_arg1 m c,
    show SC m c = m ((c.tc : Thread nD τ).loc main_arg2) from V_main_arg2 m c]

/-- THE KERNEL PROGRAM'S RUN, READ: every weakly fair execution ends with the result buffer at the kernel's value of
    the specification and the four arguments as launched. -/
theorem run_kernel : θ_run defs (onTc (τ := τ) (main (F := Ideal))) ⟨m, fun _ => 0, ρ⟩ (fun r => ∀ c : Dev nD,
      r.2.mem ((c.tc : Thread nD τ).loc main_v6)
        = arr2 (kerVal (m ((c.tc : Thread nD τ).loc main_arg0)) (m ((c.tc : Thread nD τ).loc main_arg1))
            (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v6 (Pipeline.mem_restRefs_of main_v6 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.QMM

end
-- ==== Proof.Ref.lean ====
/-
  The reference's result, index by index, is `refVal` (Spec) of its arguments.

  The reference unpacks the packed words by broadcasting them against the eight shift amounts `4 e`, shifting,
  masking with 15 and reshaping 1024 × 8 × 8192 to 8192 × 8192; it repeats every group's scale and zero point 128 times
  by a broadcast and a reshape 64 × 128 × 8192 to 8192 × 8192; then it subtracts, multiplies and contracts with `x`.
  Read at one element, each reshape is a division with remainder of the flat position: row `K` of the unpacked matrix
  comes from packed row `K / 8`, field `K % 8`, and from group `K / 128`. Below, every composed index is computed once
  over literal coordinates, then every stage is read at such an index, innermost stages first.
-/
import proofs.«414744_j49718541418971_3_alg».proof.Proof.Gen.ReferenceIdeal.Read
import proofs.«414744_j49718541418971_3_alg».proof.Proof.Spec

noncomputable section

open scoped BigOperators

namespace Cert.QMM

open Idealize.ShloMosaic Idealize.ShloMosaic.ValueIdx Cert.ReferenceIdeal

/-! ### The composed indices, over literal coordinates -/

/-- The contraction reads `x` at `(a, K)`. -/
private theorem lidx_at (a : Fin 128) (N K : Fin 8192) : Read.lidx_main_v18 (ix2 a N) K = ix2 a K :=
  funext fun d => Fin.ext (by match d with | ⟨0, _⟩ => rfl | ⟨1, _⟩ => rfl)

/-- The contraction reads the dequantized matrix at `(K, N)`. -/
private theorem ridx_at (a : Fin 128) (N K : Fin 8192) : Read.ridx_main_v18 (ix2 a N) K = ix2 K N :=
  funext fun d => Fin.ext (by match d with | ⟨0, _⟩ => rfl | ⟨1, _⟩ => rfl)

/-- Flat position `8192 K + N` of the 8192 × 8192 matrix is position `(K / 8, K % 8, N)` of the 1024 × 8 × 8192 array. -/
private theorem idx10_at (K N : Fin 8192) : Read.idx_main_v10 (ix2 K N) = ix3 (kRow K) (kNib K) N :=
  funext fun d => Fin.ext (by
    have hK : K.val < 8192 := K.isLt
    have hN : N.val < 8192 := N.isLt
    match d with
    | ⟨0, _⟩ => show (K.val * 8192 + N.val) / 65536 = K.val / 8; omega
    | ⟨1, _⟩ => show (K.val * 8192 + N.val) / 8192 % 8 = K.val % 8; omega
    | ⟨2, _⟩ => show (K.val * 8192 + N.val) % 8192 = N.val; omega)

/-- The place of row `K` inside its group of 128. -/
private def kOff (K : Fin 8192) : Fin 128 := ⟨K.val % 128, Nat.mod_lt _ (by decide)⟩

/-- Flat position `8192 K + N` is position `(K / 128, K % 128, N)` of the 64 × 128 × 8192 array (the scales' reshape). -/
private theorem idx13_at (K N : Fin 8192) : Read.idx_main_v13 (ix2 K N) = ix3 (kGrp K) (kOff K) N :=
  funext fun d => Fin.ext (by
    have hK : K.val < 8192 := K.isLt
    have hN : N.val < 8192 := N.isLt
    match d with
    | ⟨0, _⟩ => show (K.val * 8192 + N.val) / 1048576 = K.val / 128; omega
    | ⟨1, _⟩ => show (K.val * 8192 + N.val) / 8192 % 128 = K.val % 128; omega
    | ⟨2, _⟩ => show (K.val * 8192 + N.val) % 8192 = N.val; omega)

/-- The same for the zero points' reshape. -/
private theorem idx15_at (K N : Fin 8192) : Read.idx_main_v15 (ix2 K N) = ix3 (kGrp K) (kOff K) N :=
  funext fun d => Fin.ext (by
    have hK : K.val < 8192 := K.isLt
    have hN : N.val < 8192 := N.isLt
    match d with
    | ⟨0, _⟩ => show (K.val * 8192 + N.val) / 1048576 = K.val / 128; omega
    | ⟨1, _⟩ => show (K.val * 8192 + N.val) / 8192 % 128 = K.val % 128; omega
    | ⟨2, _⟩ => show (K.val * 8192 + N.val) % 8192 = N.val; omega)

/-- Repeating a group's row 128 times forgets the middle coordinate (scales). -/
private theorem idx12_at (g : Fin 64) (j : Fin 128) (N : Fin 8192) : Read.idx_main_v12 (ix3 g j N) = ix2 g N :=
  funext fun d => Fin.ext (by match d with | ⟨0, _⟩ => rfl | ⟨1, _⟩ => rfl)

/-- Repeating a group's row 128 times forgets the middle coordinate (zero points). -/
private theorem idx14_at (g : Fin 64) (j : Fin 128) (N : Fin 8192) : Read.idx_main_v14 (ix3 g j N) = ix2 g N :=
  funext fun d => Fin.ext (by match d with | ⟨0, _⟩ => rfl | ⟨1, _⟩ => rfl)

/-- Repeating a packed word eight times forgets the field coordinate … -/
private theorem idx5_at (r : Fin 1024) (e : Fin 8) (N : Fin 8192) :
    Read.idx_main_v5 (ix3 r e N) = ix3 r (0 : Fin 1) N :=
  funext fun d => Fin.ext (by match d with | ⟨0, _⟩ => rfl | ⟨1, _⟩ => rfl | ⟨2, _⟩ => rfl)

/-- … and the unit axis put in for it. -/
private theorem idx3_at (r : Fin 1024) (z : Fin 1) (N : Fin 8192) : Read.idx_main_v3 (ix3 r z N) = ix2 r N :=
  funext fun d => Fin.ext (by match d with | ⟨0, _⟩ => rfl | ⟨1, _⟩ => rfl)

/-- The shift amounts depend on the field coordinate alone … -/
private theorem idx6_at (r : Fin 1024) (e : Fin 8) (N : Fin 8192) :
    Read.idx_main_v6 (ix3 r e N) = ix3 (0 : Fin 1) e (0 : Fin 1) :=
  funext fun d => Fin.ext (by match d with | ⟨0, _⟩ => rfl | ⟨1, _⟩ => rfl | ⟨2, _⟩ => rfl)

/-- … which is the one coordinate of the vector of eight amounts. -/
private theorem idx4_at (z : Fin 1) (e : Fin 8) (z' : Fin 1) : Read.idx_main_v4 (ix3 z e z') = ix1 e :=
  funext fun d => Fin.ext (by match d with | ⟨0, _⟩ => rfl)

/-! ### The stages at such an index -/

/-- The vector of shift amounts: `e · 4` at `e`. -/
private theorem v2_at (e : Fin 8) : Read.val_main_v2 (F := Ideal) (ix1 e) = shiftOf e := by
  rw [Read.val_main_v2_apply, Read.val_main_v0_apply, Read.val_main_v1_apply, Read.val_main_c_apply]

/-- The shift amount broadcast over rows and columns. -/
private theorem v6_at (r : Fin 1024) (e : Fin 8) (N : Fin 8192) :
    Read.val_main_v6 (F := Ideal) (ix3 r e N) = shiftOf e := by
  rw [Read.val_main_v6_apply, idx6_at, Read.val_main_v4_apply, idx4_at, v2_at]

/-- The packed word broadcast over the eight fields. -/
private theorem v5_at (x1 : (⟨S1024x8192, .i32⟩ : BufTy).Contents (Elt Ideal)) (r : Fin 1024) (e : Fin 8) (N : Fin 8192) :
    Read.val_main_v5 (F := Ideal) x1 (ix3 r e N) = x1 (ix2 r N) := by
  rw [Read.val_main_v5_apply, idx5_at, Read.val_main_v3_apply, idx3_at]

/-- The mask is 15 everywhere. -/
private theorem v8_at (i : S1024x8x8192.Idx) : Read.val_main_v8 (F := Ideal) i = 15#32 := by
  rw [Read.val_main_v8_apply, Read.val_main_c_0_apply]

/-- Every shift amount `4 e`, `e < 8`, is below the word's width. -/
private theorem shiftOf_lt : ∀ e : Fin 8, (shiftOf e).toNat < 32 := by decide

/-- Below the width the arithmetic shift is the same on every unit: the sign-extending shift of the word. -/
private theorem shrsi_host (w : BitVec 32) (e : Fin 8) :
    IntOp.shrsi .host w (shiftOf e) = IntOp.shrsi .vector w (shiftOf e) := by
  unfold IntOp.shrsi
  rw [if_pos (shiftOf_lt e), if_pos (shiftOf_lt e)]

/-- The unpacked fields, still as words: field `e` of packed word `(r, N)`. -/
private theorem v9_at (x1 : (⟨S1024x8192, .i32⟩ : BufTy).Contents (Elt Ideal)) (r : Fin 1024) (e : Fin 8) (N : Fin 8192) :
    Read.val_main_v9 (F := Ideal) x1 (ix3 r e N) = nibW (x1 (ix2 r N)) e := by
  rw [Read.val_main_v9_apply, Read.val_main_v7_apply, v5_at, v6_at, v8_at, shrsi_host]
  rfl

/-- The unpacked weight as a number at `(K, N)`. -/
private theorem v11_at (x1 : (⟨S1024x8192, .i32⟩ : BufTy).Contents (Elt Ideal)) (K N : Fin 8192) :
    Read.val_main_v11 (F := Ideal) x1 (ix2 K N) = uAt x1 K N := by
  rw [Read.val_main_v11_apply, Read.val_main_v10_apply, idx10_at, v9_at]
  rfl

/-- The scale of row `K`'s group at `(K, N)`. -/
private theorem v13_at (x2 : (⟨S64x8192, .f32⟩ : BufTy).Contents (Elt Ideal)) (K N : Fin 8192) :
    Read.val_main_v13 (F := Ideal) x2 (ix2 K N) = x2 (ix2 (kGrp K) N) := by
  rw [Read.val_main_v13_apply, idx13_at, Read.val_main_v12_apply, idx12_at]

/-- The zero point of row `K`'s group at `(K, N)`. -/
private theorem v15_at (x3 : (⟨S64x8192, .f32⟩ : BufTy).Contents (Elt Ideal)) (K N : Fin 8192) :
    Read.val_main_v15 (F := Ideal) x3 (ix2 K N) = x3 (ix2 (kGrp K) N) := by
  rw [Read.val_main_v15_apply, idx15_at, Read.val_main_v14_apply, idx14_at]

theorem ref_eq (x0 : (⟨S128x8192, .f32⟩ : BufTy).Contents (Elt Ideal)) (x1 : (⟨S1024x8192, .i32⟩ : BufTy).Contents (Elt Ideal))
    (x2 x3 : (⟨S64x8192, .f32⟩ : BufTy).Contents (Elt Ideal)) :
    Cert.ReferenceIdeal.Read.val_main_v18 (F := Ideal) x0 x1 x2 x3 = arr2 (refVal x0 x1 x2 x3) := by
  funext i
  obtain ⟨a, N, rfl⟩ : ∃ (a : Fin 128) (N : Fin 8192), i = ix2 a N := ⟨i 0, i 1, eq_ix2 i⟩
  rw [arr2_ix2]
  unfold refVal
  rw [Read.val_main_v18_apply]
  refine Finset.sum_congr rfl fun K _ => ?_
  -- the summand at K: x[a, K] times ((u[K, N] − z[K/128, N]) · s[K/128, N])
  rw [lidx_at, ridx_at, Read.val_main_v17_apply, Read.val_main_v16_apply, v11_at, v13_at, v15_at]
  rfl

end Cert.QMM

end
-- ==== Proof.Law.lean ====
/-
  THE LAW that joins the two ways of computing the quantized product (Spec): for real `x`, scales and zero points,
    Σ_K x·(u·s)  −  Σ_g (Σ_j x[128 g + j])·(z_g·s_g)   =   Σ_K x·((u − z)·s).

  The proof moves everything to the real numbers. Every entry of `x`, of the scales and of the zero points is the
  coercion of a real, and a field of a packed word is the coercion of an integer; coercion commutes with products,
  differences and finite sums, so both sides are coercions of real sums over the 8192 rows. Over ℝ the summand splits,
  `x·((u − z)·s) = x·(u·s) − x·(z·s)`, and the two halves are re-indexed: the first by writing a row as
  `1024 k + 256 c + j`, the second by writing it as `128 g + j`, where its group is `g` and the factor `z_g·s_g` does not
  depend on `j`.
-/
import proofs.«414744_j49718541418971_3_alg».proof.Proof.Spec
import Mathlib.Data.EReal.Operations
import Mathlib.Algebra.BigOperators.Fin
import Mathlib.Logic.Equiv.Fin.Basic

noncomputable section

open scoped BigOperators

namespace Cert.QMM

open Idealize.ShloMosaic Idealize.ShloMosaic.ValueIdx

/-- The coercion of a finite real sum is the sum of the coercions (the coercion is additive and sends 0 to 0). -/
private theorem coe_sum {ι : Type} (s : Finset ι) (f : ι → ℝ) :
    ((∑ i ∈ s, f i : ℝ) : EReal) = ∑ i ∈ s, (f i : EReal) :=
  map_sum (⟨⟨Real.toEReal, EReal.coe_zero⟩, EReal.coe_add⟩ : ℝ →+ EReal) f s

/-- A row is `128 g + j` for exactly one group `g < 64` and offset `j < 128`: quotient and remainder by 128. -/
private def grpEquiv : Fin 64 × Fin 128 ≃ Fin 8192 where
  toFun p := gAt p.1 p.2
  invFun K := (⟨K.val / 128, by have := K.isLt; omega⟩, ⟨K.val % 128, by omega⟩)
  left_inv p := by
    obtain ⟨g, j⟩ := p
    have hg := g.isLt
    have hj := j.isLt
    refine Prod.ext (Fin.ext ?_) (Fin.ext ?_)
    · show (128 * g.val + j.val) / 128 = g.val
      omega
    · show (128 * g.val + j.val) % 128 = j.val
      omega
  right_inv K := by
    refine Fin.ext ?_
    show 128 * (K.val / 128) + K.val % 128 = K.val
    omega

/-- A row is `1024 k + 256 c + j` for exactly one tile `k < 8`, chunk `c < 4` and offset `j < 256`. -/
private def tileEquiv : Fin 8 × Fin 4 × Fin 256 ≃ Fin 8192 where
  toFun p := kAt p.1 p.2.1 p.2.2
  invFun K := (⟨K.val / 1024, by have := K.isLt; omega⟩, ⟨K.val % 1024 / 256, by omega⟩, ⟨K.val % 256, by omega⟩)
  left_inv p := by
    obtain ⟨k, c, j⟩ := p
    have hk := k.isLt
    have hc := c.isLt
    have hj := j.isLt
    refine Prod.ext (Fin.ext ?_) (Prod.ext (Fin.ext ?_) (Fin.ext ?_))
    · show (1024 * k.val + 256 * c.val + j.val) / 1024 = k.val
      omega
    · show (1024 * k.val + 256 * c.val + j.val) % 1024 / 256 = c.val
      omega
    · show (1024 * k.val + 256 * c.val + j.val) % 256 = j.val
      omega
  right_inv K := by
    refine Fin.ext ?_
    show 1024 * (K.val / 1024) + 256 * (K.val % 1024 / 256) + K.val % 256 = K.val
    omega

/-- A sum over the 8192 rows, taken group by group. -/
private theorem sum_grp {M : Type} [AddCommMonoid M] (f : Fin 8192 → M) :
    ∑ K, f K = ∑ g : Fin 64, ∑ j : Fin 128, f (gAt g j) := by
  rw [← Equiv.sum_comp grpEquiv f, Fintype.sum_prod_type]
  rfl

/-- A sum over the 8192 rows, taken tile by tile and chunk by chunk. -/
private theorem sum_tile {M : Type} [AddCommMonoid M] (f : Fin 8192 → M) :
    ∑ K, f K = ∑ k : Fin 8, ∑ c : Fin 4, ∑ j : Fin 256, f (kAt k c j) := by
  rw [← Equiv.sum_comp tileEquiv f, Fintype.sum_prod_type]
  refine Finset.sum_congr rfl fun k _ => ?_
  rw [Fintype.sum_prod_type]
  rfl

/-- Row `128 g + j` lies in group `g`. -/
private theorem kGrp_gAt (g : Fin 64) (j : Fin 128) : kGrp (gAt g j) = g := by
  have hj := j.isLt
  refine Fin.ext ?_
  show (128 * g.val + j.val) / 128 = g.val
  omega

theorem ker_eq_ref (x : Arr 128 8192 EReal) (wq : Arr 1024 8192 (BitVec 32)) (sc zr : Arr 64 8192 EReal)
    (hx : AllReal x) (hs : AllReal sc) (hz : AllReal zr) (a : Fin 128) (N : Fin 8192) :
    kerVal x wq sc zr a N = refVal x wq sc zr a N := by
  choose xr hxr using hx
  choose sr hsr using hs
  choose zq hzq using hz
  -- the unpacked weight of row `K`, as a real number
  let u : Fin 8192 → ℝ := fun K => ((nibW (wq (ix2 (kRow K) N)) (kNib K)).toInt : ℝ)
  have huAt : ∀ K, uAt wq K N = (u K : EReal) := fun _ => rfl
  -- the main term is the coercion of a real sum over the rows
  have hmain : mainVal x wq sc a N
      = ((∑ K, xr (ix2 a K) * (u K * sr (ix2 (kGrp K) N)) : ℝ) : EReal) := by
    rw [sum_tile (fun K => xr (ix2 a K) * (u K * sr (ix2 (kGrp K) N)))]
    simp only [coe_sum, EReal.coe_mul]
    unfold mainVal dq
    simp only [hxr, hsr, huAt]
  -- so is the zero-point correction: inside group `g` the factor `z_g · s_g` is constant
  have hcorr : corrVal x sc zr a N
      = ((∑ K, xr (ix2 a K) * (zq (ix2 (kGrp K) N) * sr (ix2 (kGrp K) N)) : ℝ) : EReal) := by
    rw [sum_grp (fun K => xr (ix2 a K) * (zq (ix2 (kGrp K) N) * sr (ix2 (kGrp K) N)))]
    simp only [kGrp_gAt, ← Finset.sum_mul]
    simp only [coe_sum, EReal.coe_mul]
    unfold corrVal
    simp only [hxr, hsr, hzq]
  -- and so is the reference
  have href : refVal x wq sc zr a N
      = ((∑ K, xr (ix2 a K) * ((u K - zq (ix2 (kGrp K) N)) * sr (ix2 (kGrp K) N)) : ℝ) : EReal) := by
    simp only [coe_sum, EReal.coe_mul, EReal.coe_sub]
    unfold refVal
    simp only [hxr, hsr, hzq, huAt]
  -- over ℝ: the product distributes over the difference, and the sum over the difference of the summands
  unfold kerVal
  rw [hmain, hcorr, href, ← EReal.coe_sub, ← Finset.sum_sub_distrib]
  refine congrArg _ (Finset.sum_congr rfl fun K _ => ?_)
  ring

end Cert.QMM

end
-- ==== Proof.Finite.lean ====
/-
  Under the precondition every float input is a real number.

  The precondition is the conjunction, as 1-bit words, of three "all of |x| < +∞": one for each float input. A
  conjunction of 1-bit words that is 1 has both conjuncts 1; a reduction by "and" over all axes that is 1 met a 1 at
  every index; and an extended real x with max x (−x) < +∞ is neither +∞ nor −∞, so it is a real number.
-/
import proofs.«414744_j49718541418971_3_alg».proof.Pre_finite_inputs
import proofs.«414744_j49718541418971_3_alg».proof.Proof.Spec
import Idealize.ShloMosaic.Lib.ReduceAll

noncomputable section

namespace Cert.QMM

open Idealize.ShloMosaic Idealize.ShloMosaic.ValueIdx

/-- The pattern 0x7F800000 (sign 0, exponent all ones, fraction 0) denotes +∞. -/
private theorem ofBits_inf : Ideal.ofBits .f32 0x7F800000#32 = (⊤ : EReal) := by
  simp [Ideal.ofBits, Ideal.ieee]

/-- An extended real whose absolute value `max x (−x)` compares below the pattern of +∞ is a real number:
    at `x = +∞` the maximum is +∞, at `x = −∞` its negation is +∞, and +∞ is not below itself. -/
private theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- An array every one of whose entries has `|x| < +∞` (the comparison the precondition prints, read at an index:
    the broadcast constant is the same pattern at every index) has only real entries. -/
private theorem allReal_of_cmp {n0 n1 : Nat} (x : FVec Ideal (⟨2, ![n0, n1]⟩ : Shape) .f32)
    (hb : Cert.Pre_finite_inputs.S_.BroadcastsInDim (⟨2, ![n0, n1]⟩ : Shape) (![] : Fin 0 → Fin 2))
    (hall : ∀ i, cmpf .olt (Host.absf x)
      (broadcastInDim (⟨2, ![n0, n1]⟩ : Shape) ![] hb (constant Cert.Pre_finite_inputs.S_ .f32 0x7F800000#32)) i = 1#1) :
    AllReal x :=
  fun i => real_of_abs_lt_inf (x i) (hall i)

theorem allReal_of_pre [Cert.Pre_finite_inputs.Facts]
    (x0 : FVec Ideal Cert.Pre_finite_inputs.S128x8192 .f32) (x1 : IVec Cert.Pre_finite_inputs.S1024x8192 32)
    (x2 x3 : FVec Ideal Cert.Pre_finite_inputs.S64x8192 .f32)
    (h : Cert.Pre_finite_inputs.fn (F := Ideal) x0 x1 x2 x3 = fun _ => 1#1) :
    AllReal x0 ∧ AllReal x2 ∧ AllReal x3 := by
  -- the rank-0 result has one index
  haveI : Subsingleton Cert.Pre_finite_inputs.S_.Idx := ⟨fun a b => funext fun d => d.elim0⟩
  have h0 := congrFun h ix0
  dsimp only [Cert.Pre_finite_inputs.fn] at h0
  -- (all₀ ∧ all₂) ∧ all₃ = 1: each conjunct is 1
  obtain ⟨h02, h3⟩ := IntOp.andi_eq_one.1 h0
  obtain ⟨h0', h2⟩ := IntOp.andi_eq_one.1 h02
  exact ⟨allReal_of_cmp x0 _ (Host.reduce_andi_all _ _ _ _ _ h0'),
    allReal_of_cmp x2 _ (Host.reduce_andi_all _ _ _ _ _ h2),
    allReal_of_cmp x3 _ (Host.reduce_andi_all _ _ _ _ _ h3)⟩

end Cert.QMM

end
-- ==== Proof.lean ====
/-
  The certificate of a 4-bit weight-only quantized matrix product `out = x · dequant(W_q, scales, zeros)`
  (x : f32[128, 8192]; W_q : i32[1024, 8192], eight 4-bit fields a word; scales, zeros : f32[64, 8192], one row per group
  of 128 rows of the unpacked weights) against its jnp reference, over the extended reals.

  The kernel's program computes `x · (u · s)` in a pallas_call — grid (4 column tiles) × (8 K-tiles), the output block
  resident across the K-tiles, zeroed at the first and written back after the last, each body unpacking and scaling
  four chunks of 256 rows and multiplying — and subtracts on the host the zero-point correction
  `groupsum(x) · (z · s)`. The reference computes `x · ((u − z) · s)` in one product. At the ideal values format changes
  are the identity and sums may be regrouped, so the kernel's program ends at `kerVal` and the reference at `refVal`
  (Proof/Spec.lean) of the same arguments; the two agree when `x`, `s`, `z` are real (Proof/Law.lean: the product
  distributes over `u − z` and over a group's sum), which is what the precondition says (Proof/Finite.lean).

  Modules: Spec (the definitions), Law (the algebra), Finite (real entries from the precondition), Ref (the
  reference read index by index), Tail (the host correction read index by index), Body (one body's store at an
  index), Pieces (what each control case leaves in the output's buffer), Accum (the running sum over the K-tiles),
  Final (the blocks cover the product array; the host tail; the run), LibDot (a matrix product at an index).
  The ideal pass rewrote nothing, so `preserves` is `True`; the two kernel frames are the generated ones and the
  reference's frame is its generated run with the result dropped.
-/
import proofs.«414744_j49718541418971_3_alg».proof.Defs
import proofs.«414744_j49718541418971_3_alg».proof.Proof.Gen.Kernel
import proofs.«414744_j49718541418971_3_alg».proof.Proof.Gen.Kernel.Skeleton
import proofs.«414744_j49718541418971_3_alg».proof.Proof.Gen.Kernel.Launch
import proofs.«414744_j49718541418971_3_alg».proof.Proof.Gen.Kernel.Points
import proofs.«414744_j49718541418971_3_alg».proof.Proof.Gen.Kernel.Frame
import proofs.«414744_j49718541418971_3_alg».proof.Proof.Gen.KernelIdeal
import proofs.«414744_j49718541418971_3_alg».proof.Proof.Gen.KernelIdeal.Skeleton
import proofs.«414744_j49718541418971_3_alg».proof.Proof.Gen.KernelIdeal.Launch
import proofs.«414744_j49718541418971_3_alg».proof.Proof.Gen.KernelIdeal.Points
import proofs.«414744_j49718541418971_3_alg».proof.Proof.Gen.KernelIdeal.Frame
import proofs.«414744_j49718541418971_3_alg».proof.Proof.Gen.ReferenceIdeal
import proofs.«414744_j49718541418971_3_alg».proof.Proof.Gen.Pre_finite_inputs
import proofs.«414744_j49718541418971_3_alg».proof.Proof.Gen.ReferenceIdeal.Run
import proofs.«414744_j49718541418971_3_alg».proof.Proof.Gen.ReferenceIdeal.Read
import proofs.«414744_j49718541418971_3_alg».proof.Proof.Final
import proofs.«414744_j49718541418971_3_alg».proof.Proof.Ref
import proofs.«414744_j49718541418971_3_alg».proof.Proof.Law
import proofs.«414744_j49718541418971_3_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

/-- At the ideal values, from memories agreeing on the four arguments, the kernel's program ends at
    `Σ x·(u·s) − Σ_g (Σ_j x)·(z_g·s_g)` and the reference at `Σ x·((u − z)·s)`: equal, the float inputs being real. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.QMM.arr2 (Cert.QMM.kerVal
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))),
    Cert.QMM.run_kernel m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v18_eq _ _ _ _).trans ?_
  rw [Cert.QMM.ref_eq, (hagree c).1, (hagree c).2.1, (hagree c).2.2.1, (hagree c).2.2.2]
  obtain ⟨h0, h2, h3⟩ := Cert.QMM.allReal_of_pre _ _ _ _ (hpre c)
  funext i
  obtain ⟨a, N, rfl⟩ : ∃ (a : Fin 128) (N : Fin 8192), i = ix2 a N := ⟨i 0, i 1, eq_ix2 i⟩
  rw [Cert.QMM.arr2_ix2]
  exact (Cert.QMM.ker_eq_ref _ _ _ _ h0 h2 h3 a N).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
